-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S1600000 : Shape := ⟨1, ![1600000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x256 .f32) (main_arg1 : FVec F S256x128 .f32) (main_arg2 : FVec F S128 .f32) (main_arg3 : FVec F S128x8 .f32) (main_arg4 : FVec F S8 .f32) (main_arg5 : IVec S1600000 32) (main_arg6 : IVec S1600000 32) (main_arg7 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_v13 main_v16
-- ==== Kernel.lean ====
abbrev S100000x256 : Shape := ⟨2, ![100000, 256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S100000x8 : Shape := ⟨2, ![100000, 8]⟩
abbrev S5000x8 : Shape := ⟨2, ![5000, 8]⟩
abbrev S1600000x8 : Shape := ⟨2, ![1600000, 8]⟩
abbrev S1x8 : Shape := ⟨2, ![1, 8]⟩
abbrev S64x8 : Shape := ⟨2, ![64, 8]⟩
abbrev S5000x64 : Shape := ⟨2, ![5000, 64]⟩
abbrev S64 : Shape := ⟨1, ![64]⟩
abbrev S64x1 : Shape := ⟨2, ![64, 1]⟩

abbrev nBuf : Space → Nat
  | .hbm => 73
  | .vmem => 25
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x8, .f32⟩
  | .hbm, ⟨4, _⟩ => ⟨S8, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .bf16⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x8, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x8, .f32⟩
  | .hbm, ⟨54, _⟩ => ⟨S_, .f32⟩
  | .hbm, ⟨55, _⟩ => ⟨S100000x8, .f32⟩
  | .hbm, ⟨56, _⟩ => ⟨S1600000x1, .i32⟩
  | .hbm, ⟨57, _⟩ => ⟨S100000x8, .f32⟩
  | .hbm, ⟨58, _⟩ => ⟨S100000x1, .i32⟩
  | .hbm, ⟨59, _⟩ => ⟨S1x8, .f32⟩
  | .hbm, ⟨60, _⟩ => ⟨S64x8, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S64, .f32⟩
  | .hbm, ⟨65, _⟩ => ⟨S100000x1, .i32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64x1, .f32⟩
  | .hbm, ⟨71, _⟩ => ⟨S64x8, .f32⟩
  | .hbm, ⟨72, _⟩ => ⟨S64x8, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x8, .f32⟩
  | .local _ .vmem, ⟨15, _⟩ => ⟨S5000x8, .f32⟩
  | .local _ .vmem, ⟨16, _⟩ => ⟨S5000x8, .f32⟩
  | .local _ .vmem, ⟨17, _⟩ => ⟨S5000x8, .f32⟩
  | .local _ .vmem, ⟨18, _⟩ => ⟨S5000x8, .f32⟩
  | .local _ .vmem, ⟨19, _⟩ => ⟨S5000x1, .f32⟩
  | .local _ .vmem, ⟨20, _⟩ => ⟨S5000x1, .f32⟩
  | .local _ .vmem, ⟨21, _⟩ => ⟨S1x8, .f32⟩
  | .local _ .vmem, ⟨22, _⟩ => ⟨S5000x1, .i32⟩
  | .local _ .vmem, ⟨23, _⟩ => ⟨S5000x1, .i32⟩
  | .local _ .vmem, ⟨24, _⟩ => ⟨S64x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  shapeCasts_S8_S1x8 : S8.ShapeCasts S1x8
  inb_S64x8_S64x8_0_0 : ∀ a, (![0, 0] : Fin 2 → Nat) a + S64x8.size a ≤ S64x8.size a
  h_S64x8 : 0 < S64x8.numel
  shapeCasts_S5000x8_S5000x8 : S5000x8.ShapeCasts S5000x8
  broadcasts_S5000x1_S5000x8 : S5000x1.Broadcasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  iota_S5000x64_d1_w32 : S5000x64.Iotas .tc 32 [1]
  broadcasts_S5000x1_S5000x64 : S5000x1.Broadcasts S5000x64
  natLt_1_32 : 1 < 32
  shapeCasts_S64x8_S64x8 : S64x8.ShapeCasts S64x8
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x8_S5000x8_1_0_0_1_n_n_wf : DotDims.WF S5000x128 S128x8 S5000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S5000x64_S5000x8_S64x8_0_0_1_1_n_n_wf : DotDims.WF S5000x64 S5000x8 S64x8 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x8.size a ≤ S128x8.size a
  hwx1_4 : ∀ i : grid1.Coords, EltTy.bits .f32 = 32 ∨ (Rect.block (s := S128x8) S128x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x8.size a ≤ S100000x8.size a
  hwx1_5 : ∀ i : grid1.Coords, EltTy.bits .f32 = 32 ∨ (Rect.block (s := S100000x8) S5000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .i32 = 32 ∨ (Rect.block (s := S100000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x8.size a ≤ S64x8.size a
  hwx2_4 : ∀ i : grid2.Coords, EltTy.bits .f32 = 32 ∨ (Rect.block (s := S64x8) S64x8.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S5000x64_S5000x8_S64x8_0_0_1_1_n_n : DotDims S5000x64 S5000x8 S64x8 where
  lhsContracting := [0]
  rhsContracting := [0]
  lhsNonContracting := [1]
  rhsNonContracting := [1]
  lhsBatch := []
  rhsBatch := []
  wf := dot_S5000x64_S5000x8_S64x8_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x8.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S100000x8 : Shape := ⟨2, ![100000, 8]⟩
abbrev S1600000x8 : Shape := ⟨2, ![1600000, 8]⟩
abbrev S1x8 : Shape := ⟨2, ![1, 8]⟩
abbrev S64x8 : Shape := ⟨2, ![64, 8]⟩
abbrev S64 : Shape := ⟨1, ![64]⟩
abbrev S64x1 : Shape := ⟨2, ![64, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x8, .f32⟩
  | .hbm, ⟨4, _⟩ => ⟨S8, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x8, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x8, .f32⟩
  | .hbm, ⟨65, _⟩ => ⟨S_, .f32⟩
  | .hbm, ⟨66, _⟩ => ⟨S100000x8, .f32⟩
  | .hbm, ⟨67, _⟩ => ⟨S1600000x1, .i32⟩
  | .hbm, ⟨68, _⟩ => ⟨S100000x8, .f32⟩
  | .hbm, ⟨69, _⟩ => ⟨S100000x1, .f32⟩
  | .hbm, ⟨70, _⟩ => ⟨S100000x8, .f32⟩
  | .hbm, ⟨71, _⟩ => ⟨S100000x8, .f32⟩
  | .hbm, ⟨72, _⟩ => ⟨S1x8, .f32⟩
  | .hbm, ⟨73, _⟩ => ⟨S100000x8, .f32⟩
  | .hbm, ⟨74, _⟩ => ⟨S100000x8, .f32⟩
  | .hbm, ⟨75, _⟩ => ⟨S_, .f32⟩
  | .hbm, ⟨76, _⟩ => ⟨S64x8, .f32⟩
  | .hbm, ⟨77, _⟩ => ⟨S100000x1, .i32⟩
  | .hbm, ⟨78, _⟩ => ⟨S64x8, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S64, .f32⟩
  | .hbm, ⟨83, _⟩ => ⟨S100000x1, .i32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x8, .f32⟩
  | .hbm, ⟨90, _⟩ => ⟨S64x8, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x8_S100000x8_1_0_0_1_n_n_wf : DotDims.WF S100000x128 S128x8 S100000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.LibColumn.lean ====
/-
  A column kept as a [a, 1] array: the three readings a row reduction with `keepdims` needs.
  A vector of `a` entries cast to [a, 1] reads at (r, 0) its entry r; a [a, 1] column broadcast along a second axis of
  extent b reads at (r, k) the column's entry (r, 0); and the source index of a reduction of a [a, b] array over its
  second axis, at result position r with reduced coordinate k, is (r, k).
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column broadcast to `[a, b]` reads, at `(r, k)`, the column at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Reducing an `[a, b]` array over its second axis: the source index over result position `r` with reduced
    coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Cert.LibColumn
-- ==== Proof.Payload.lean ====
/-
  The three kernel bodies' arithmetic, read at one index of the stored block, at the ideal instance (floats are
  extended reals, a change of float format is the identity, a matrix product into a zero accumulator is the plain sum).

  Layer 1's block: entry (p, q) is the sum over k of (x (p, k) · c (p, 0)) · w (k, q), `c` the column of row scales.
  Layer 2's block: entry (p, q) is the sum over k of (max (a (p, k) · c₁ (p, 0) + b (0, k)) 0 · c₂ (p, 0)) · w (k, q).
  The pooling block: entry (g, f) is what the block held plus the sum over the 5000 rows r of the block of
  [word r = g] · (a (r, f) · c (r, 0) + b (0, f)); the reset writes zero.
-/
import proofs.«419733_j37726992728419_3_alg».proof.Proof.Gen.KernelIdeal.Skeleton
import proofs.«419733_j37726992728419_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-! ## Layer 1's product: rows × contraction times contraction × columns -/

theorem lhs_k0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_k0_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_k0_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_k0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Layer 1's matrix product into the zero block, at (p, q): the sum over the 256 contraction positions. -/
theorem matmul_k0_apply (lhs : FVec Ideal S5000x256 .bf16) (rhs : FVec Ideal S256x128 .bf16) (p : Fin 5000) (q : Fin 128) :
    matmul dot_S5000x256_S256x128_S5000x128_1_0_0_1_n_n none lhs rhs (constant (F := Ideal) S5000x128 .f32 0x00000000#32) (ix2 p q)
      = ∑ k : Fin 256, lhs (ix2 p k) * rhs (ix2 k q) := by
  refine (Ideal.matmul_constant_zero_apply dot_S5000x256_S256x128_S5000x128_1_0_0_1_n_n none lhs rhs (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_k0_0 _ _
    | ⟨1, _⟩ => exact (lhs_k0_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_k0_0 _ _).trans hk
    | ⟨1, _⟩ => exact rhs_k0_1 _ _)
  rw [el, er]

/-- Layer 1's stored block at (p, q). -/
theorem pay0_apply (v0 : Vec Ideal S5000x256 .f32) (v1 : Vec Ideal S5000x1 .f32) (v6 : Vec Ideal S256x128 .f32)
    (p : Fin 5000) (q : Fin 128) :
    k0_pay1 (F := Ideal) v0 v1 v6 (ix2 p q)
      = ∑ k : Fin 256, (v0 (ix2 p k) * v1 (ix2 p (0 : Fin 1))) * v6 (ix2 k q) := by
  unfold k0_pay1
  rw [truncf_apply]
  refine (matmul_k0_apply _ _ p q).trans ?_
  refine Finset.sum_congr rfl fun k _ => ?_
  rw [truncf_apply, truncf_apply, mulf_apply, Cert.LibColumn.broadcastTo_a1_ab_apply, shapeCast_self]

/-! ## Layer 2's product -/

theorem lhs_k1_0 (i : S5000x8.Idx) (q : dot_S5000x128_S128x8_S5000x8_1_0_0_1_n_n.contr.Idx) :
    (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl
theorem lhs_k1_1 (i : S5000x8.Idx) (q : dot_S5000x128_S128x8_S5000x8_1_0_0_1_n_n.contr.Idx) :
    (dot_S5000x128_S128x8_S5000x8_1_0_0_1_n_n.lhsIdx i q 1).val = (q ⟨0, by decide⟩).val :=
  dot_S5000x128_S128x8_S5000x8_1_0_0_1_n_n.lhsIdx_val_of_single rfl i q
theorem rhs_k1_0 (i : S5000x8.Idx) (q : dot_S5000x128_S128x8_S5000x8_1_0_0_1_n_n.contr.Idx) :
    (dot_S5000x128_S128x8_S5000x8_1_0_0_1_n_n.rhsIdx i q 0).val = (q ⟨0, by decide⟩).val :=
  dot_S5000x128_S128x8_S5000x8_1_0_0_1_n_n.rhsIdx_val_of_single rfl i q
theorem rhs_k1_1 (i : S5000x8.Idx) (q : dot_S5000x128_S128x8_S5000x8_1_0_0_1_n_n.contr.Idx) :
    (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl

/-- Layer 2's matrix product into the zero block, at (p, q): the sum over the 128 contraction positions. -/
theorem matmul_k1_apply (lhs : FVec Ideal S5000x128 .bf16) (rhs : FVec Ideal S128x8 .bf16) (p : Fin 5000) (q : Fin 8) :
    matmul dot_S5000x128_S128x8_S5000x8_1_0_0_1_n_n none lhs rhs (constant (F := Ideal) S5000x8 .f32 0x00000000#32) (ix2 p q)
      = ∑ k : Fin 128, lhs (ix2 p k) * rhs (ix2 k q) := by
  refine (Ideal.matmul_constant_zero_apply dot_S5000x128_S128x8_S5000x8_1_0_0_1_n_n none lhs rhs (ix2 p q)).trans ?_
  rw [← Equiv.sum_comp (contrEquiv1 dot_S5000x128_S128x8_S5000x8_1_0_0_1_n_n 128 rfl rfl).symm]
  refine Finset.sum_congr rfl fun k _ => ?_
  have hk := contrEquiv1_symm_val dot_S5000x128_S128x8_S5000x8_1_0_0_1_n_n 128 rfl rfl k
  have el : dot_S5000x128_S128x8_S5000x8_1_0_0_1_n_n.lhsIdx (ix2 p q) ((contrEquiv1 dot_S5000x128_S128x8_S5000x8_1_0_0_1_n_n 128 rfl rfl).symm k) = ix2 p k := funext fun a => Fin.ext (by
    match a with
    | ⟨0, _⟩ => exact lhs_k1_0 _ _
    | ⟨1, _⟩ => exact (lhs_k1_1 _ _).trans hk)
  have er : dot_S5000x128_S128x8_S5000x8_1_0_0_1_n_n.rhsIdx (ix2 p q) ((contrEquiv1 dot_S5000x128_S128x8_S5000x8_1_0_0_1_n_n 128 rfl rfl).symm k) = ix2 k q := funext fun a => Fin.ext (by
    match a with
    | ⟨0, _⟩ => exact (rhs_k1_0 _ _).trans hk
    | ⟨1, _⟩ => exact rhs_k1_1 _ _)
  rw [el, er]

/-- The f32 zero word, as a scalar constant, is the extended real zero. -/
theorem scalar_zero_f32 : Scalar.ofBits (F := Ideal) .f32 0x00000000#32 = (0 : EReal) := Ideal.ofBits_zero_f32

/-- Layer 2's stored block at (p, q). -/
theorem pay1_apply (v0 : Vec Ideal S5000x128 .f32) (v2 : Vec Ideal S5000x1 .f32) (v6 : Vec Ideal S1x128 .f32)
    (v12 : Vec Ideal S5000x1 .f32) (v17 : Vec Ideal S128x8 .f32) (p : Fin 5000) (q : Fin 8) :
    k1_pay1 (F := Ideal) v0 v2 v6 v12 v17 (ix2 p q)
      = ∑ k : Fin 128, (max (v0 (ix2 p k) * v2 (ix2 p (0 : Fin 1)) + v6 (ix2 (0 : Fin 1) k)) 0
          * v12 (ix2 p (0 : Fin 1))) * v17 (ix2 k q) := by
  unfold k1_pay1
  refine (matmul_k1_apply _ _ p q).trans ?_
  refine Finset.sum_congr rfl fun k _ => ?_
  rw [truncf_apply, truncf_apply, mulf_apply, maximumf_apply, addf_apply, mulf_apply, broadcast_apply,
    Cert.LibColumn.broadcastTo_a1_ab_apply, Cert.LibColumn.broadcastTo_a1_ab_apply, broadcastTo_1b_ab_apply,
    shapeCast_self, shapeCast_self, shapeCast_self, shapeCast_self, scalar_zero_f32]

/-! ## The pooling kernel -/

/-- The pooling kernel's reset writes zero everywhere. -/
theorem pay2_reset_apply (g : Fin 64) (f : Fin 8) : k2_pay1 (F := Ideal) (ix2 g f) = 0 := by
  unfold k2_pay1
  rw [broadcast_apply, scalar_zero_f32]

/-- The one-hot matrix at (r, g): one where row r's word is g, zero elsewhere. -/
theorem onehot_apply (v14 : Vec Ideal S5000x1 .i32) (r : Fin 5000) (g : Fin 64) :
    (sitofp .f32 (extui 32 (cmpi .eq (broadcastTo S5000x64 (shapeCast S5000x1 v14 shapeCasts_S5000x1_S5000x1) broadcasts_S5000x1_S5000x64)
        (iota .tc S5000x64 32 [1] iota_S5000x64_d1_w32)) natLt_1_32) : FVec Ideal S5000x64 .f32) (ix2 r g)
      = if v14 (ix2 r (0 : Fin 1)) = BitVec.ofNat 32 g.val then (1 : EReal) else 0 := by
  rw [sitofp_apply, extui_apply]
  show FloatOps.sitofp (F := Ideal) .f32 ((IntOp.cmpi .eq
      (broadcastTo S5000x64 (shapeCast S5000x1 v14 shapeCasts_S5000x1_S5000x1) broadcasts_S5000x1_S5000x64 (ix2 r g))
      (iota .tc S5000x64 32 [1] iota_S5000x64_d1_w32 (ix2 r g))).setWidth 32) = _
  rw [Cert.LibColumn.broadcastTo_a1_ab_apply, shapeCast_self, iota_single_apply]
  show (((((IntOp.cmpi .eq (v14 (ix2 r (0 : Fin 1))) (BitVec.ofNat 32 g.val)).setWidth 32).toInt : ℤ) : ℝ) : EReal) = _
  by_cases h : v14 (ix2 r (0 : Fin 1)) = BitVec.ofNat 32 g.val
  · rw [if_pos h, h]
    have e : (IntOp.cmpi .eq (BitVec.ofNat 32 g.val) (BitVec.ofNat 32 g.val)) = 1#1 := by
      simp only [IntOp.cmpi, beq_self_eq_true]
      rfl
    rw [e]
    have e1 : ((1#1).setWidth 32).toInt = 1 := by decide
    rw [e1]
    norm_num
  · rw [if_neg h]
    have e : (IntOp.cmpi .eq (v14 (ix2 r (0 : Fin 1))) (BitVec.ofNat 32 g.val)) = 0#1 := by
      simp only [IntOp.cmpi, beq_eq_false_iff_ne.mpr h]
      rfl
    rw [e]
    have e0 : ((0#1).setWidth 32).toInt = 0 := by decide
    rw [e0]
    norm_num

theorem lhs_k2_0 (i : S64x8.Idx) (q : dot_S5000x64_S5000x8_S64x8_0_0_1_1_n_n.contr.Idx) :
    (dot_S5000x64_S5000x8_S64x8_0_0_1_1_n_n.lhsIdx i q 0).val = (q ⟨0, by decide⟩).val :=
  dot_S5000x64_S5000x8_S64x8_0_0_1_1_n_n.lhsIdx_val_of_single rfl i q
theorem lhs_k2_1 (i : S64x8.Idx) (q : dot_S5000x64_S5000x8_S64x8_0_0_1_1_n_n.contr.Idx) :
    (dot_S5000x64_S5000x8_S64x8_0_0_1_1_n_n.lhsIdx i q 1).val = (i 0).val := by
  unfold DotDims.lhsIdx
  rw [dif_neg (show ¬(1 : Fin S5000x64.rank) ∈ dot_S5000x64_S5000x8_S64x8_0_0_1_1_n_n.lhsBatch by decide), dif_pos (show (1 : Fin S5000x64.rank) ∈ dot_S5000x64_S5000x8_S64x8_0_0_1_1_n_n.lhsNonContracting by decide)]
  rfl
theorem rhs_k2_0 (i : S64x8.Idx) (q : dot_S5000x64_S5000x8_S64x8_0_0_1_1_n_n.contr.Idx) :
    (dot_S5000x64_S5000x8_S64x8_0_0_1_1_n_n.rhsIdx i q 0).val = (q ⟨0, by decide⟩).val :=
  dot_S5000x64_S5000x8_S64x8_0_0_1_1_n_n.rhsIdx_val_of_single rfl i q
theorem rhs_k2_1 (i : S64x8.Idx) (q : dot_S5000x64_S5000x8_S64x8_0_0_1_1_n_n.contr.Idx) :
    (dot_S5000x64_S5000x8_S64x8_0_0_1_1_n_n.rhsIdx i q 1).val = (i 1).val := by
  unfold DotDims.rhsIdx
  rw [dif_neg (show ¬(1 : Fin S5000x8.rank) ∈ dot_S5000x64_S5000x8_S64x8_0_0_1_1_n_n.rhsBatch by decide), dif_pos (show (1 : Fin S5000x8.rank) ∈ dot_S5000x64_S5000x8_S64x8_0_0_1_1_n_n.rhsNonContracting by decide)]
  rfl

/-- The pooling product into the zero block, at (g, f): both operands are contracted over their 5000 rows. -/
theorem matmul_k2_apply (lhs : FVec Ideal S5000x64 .f32) (rhs : FVec Ideal S5000x8 .f32) (g : Fin 64) (f : Fin 8) :
    matmul dot_S5000x64_S5000x8_S64x8_0_0_1_1_n_n (some .fp32) lhs rhs (constant (F := Ideal) S64x8 .f32 0x00000000#32) (ix2 g f)
      = ∑ r : Fin 5000, lhs (ix2 r g) * rhs (ix2 r f) := by
  refine (Ideal.matmul_constant_zero_apply dot_S5000x64_S5000x8_S64x8_0_0_1_1_n_n (some .fp32) lhs rhs (ix2 g f)).trans ?_
  rw [← Equiv.sum_comp (contrEquiv1 dot_S5000x64_S5000x8_S64x8_0_0_1_1_n_n 5000 rfl rfl).symm]
  refine Finset.sum_congr rfl fun k _ => ?_
  have hk := contrEquiv1_symm_val dot_S5000x64_S5000x8_S64x8_0_0_1_1_n_n 5000 rfl rfl k
  have el : dot_S5000x64_S5000x8_S64x8_0_0_1_1_n_n.lhsIdx (ix2 g f) ((contrEquiv1 dot_S5000x64_S5000x8_S64x8_0_0_1_1_n_n 5000 rfl rfl).symm k) = ix2 k g := funext fun a => Fin.ext (by
    match a with
    | ⟨0, _⟩ => exact (lhs_k2_0 _ _).trans hk
    | ⟨1, _⟩ => exact lhs_k2_1 _ _)
  have er : dot_S5000x64_S5000x8_S64x8_0_0_1_1_n_n.rhsIdx (ix2 g f) ((contrEquiv1 dot_S5000x64_S5000x8_S64x8_0_0_1_1_n_n 5000 rfl rfl).symm k) = ix2 k f := funext fun a => Fin.ext (by
    match a with
    | ⟨0, _⟩ => exact (rhs_k2_0 _ _).trans hk
    | ⟨1, _⟩ => exact rhs_k2_1 _ _)
  rw [el, er]

/-- The pooling kernel's update at (g, f): what the block held plus the block's rows whose word is `g`. -/
theorem pay2_apply (v3 : Vec Ideal S5000x8 .f32) (v5 : Vec Ideal S5000x1 .f32) (v9 : Vec Ideal S1x8 .f32)
    (v14 : Vec Ideal S5000x1 .i32) (v21 : Vec Ideal S64x8 .f32) (g : Fin 64) (f : Fin 8) :
    k2_pay2 (F := Ideal) v3 v5 v9 v14 v21 (ix2 g f)
      = v21 (ix2 g f) + ∑ r : Fin 5000, (if v14 (ix2 r (0 : Fin 1)) = BitVec.ofNat 32 g.val then (1 : EReal) else 0)
          * (v3 (ix2 r f) * v5 (ix2 r (0 : Fin 1)) + v9 (ix2 (0 : Fin 1) f)) := by
  unfold k2_pay2
  rw [addf_apply, shapeCast_self]
  refine congrArg (v21 (ix2 g f) + ·) ?_
  refine (matmul_k2_apply _ _ g f).trans ?_
  refine Finset.sum_congr rfl fun r _ => ?_
  rw [onehot_apply, addf_apply, mulf_apply, Cert.LibColumn.broadcastTo_a1_ab_apply, broadcastTo_1b_ab_apply,
    shapeCast_self, shapeCast_self, shapeCast_self]

end Cert.KernelIdeal.Payload

end
-- ==== Proof.Region0.lean ====
/-
  Layer 1's transform, as the array the first pipeline leaves.

  The grid's point t writes rows [5000 t, 5000 t + 5000) of the [100000, 128] result, each row from the same rows of
  the [100000, 256] input and of the column of row scales, and the whole [256, 128] weight; the 20 blocks tile the
  result. So the result at (p, q) is the sum over k of (x (p, k) · c (p, 0)) · w (k, q), whatever the arrays held at
  the region's entry.

  The steps: where each window's block sits at point t (`idx_facts`); the product as one function of the three arrays,
  index by index (`rowsTimesWeight`); each input block as rows of its array (`xblk_apply`, `cblk_apply`, `wblk_eq`); one
  entry of a block of the product from blocks that are such rows (`pay_entry`); what point t writes back is block t of
  the product (`flushed_eq`); the blocks tile the result (`mem_blk`, `cover`); so the result is the product (`final`),
  read at (p, q) (`value`).
-/
import proofs.«419733_j37726992728419_3_alg».proof.Proof.KernelIdealFrame
import proofs.«419733_j37726992728419_3_alg».proof.Proof.Payload
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

/-- The region's arrays at their literal types: the input, the column of row scales, the weight as the region finds them,
    and the result as the pipeline leaves it. -/
abbrev xArr (c : Dev nD) : S100000x256.Idx → EReal := V c main_arg0
abbrev cArr (c : Dev nD) : S100000x1.Idx → EReal := V c main_v10
abbrev wArr (c : Dev nD) : S256x128.Idx → EReal := V c main_arg1
abbrev outArr (c : Dev nD) : S100000x128.Idx → EReal := (dat0 (F := Ideal) V c).arrAt 3 cfg0.N

/-! ## Where the blocks sit -/

/-- The zero offsets of a whole-block access, as the constant function. -/
theorem hz : (![0, 0] : Fin 2 → Nat) = fun _ => 0 := funext fun a => by fin_cases a <;> rfl

/-- The index maps over the grid's 20 points: the input's, the scales' and the result's block at point t is block
    (t, 0) of its array; the weight's is block (0, 0), the whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The product, and the input blocks as rows of their arrays -/

/-- The scaled input times the weight, as one function of the three arrays: entry (p, q) is the sum over k of
    (x (p, k) · s (p, 0)) · w (k, q). -/
def rowsTimesWeight (x : S100000x256.Idx → EReal) (s : S100000x1.Idx → EReal) (w : S256x128.Idx → EReal) :
    S100000x128.Idx → EReal :=
  fun i => ∑ k : Fin 256, (x (ix2 (i 0 : Fin 100000) k) * s (ix2 (i 0 : Fin 100000) (0 : Fin 1))) * w (ix2 k (i 1 : Fin 128))

/-- The input's block at point t is rows 5000 t … 5000 t + 4999 of the input. -/
theorem xblk_apply (c : Dev nD) (t : Fin cfg0.N) (y : S5000x256.Idx) (k : S100000x256.Idx)
    (hk0 : (k 0).val = t.val * 5000 + (y 0).val) (hk1 : (k 1).val = (y 1).val) :
    (iblk0 V c 0 t : Vec Ideal S5000x256 .f32) y = xArr V c k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 256 + 1 * (y 1).val = (k 1).val; rw [e1, hk1]; omega

/-- The scales' block at point t is rows 5000 t … 5000 t + 4999 of the column of scales. -/
theorem cblk_apply (c : Dev nD) (t : Fin cfg0.N) (y : S5000x1.Idx) (k : S100000x1.Idx)
    (hk0 : (k 0).val = t.val * 5000 + (y 0).val) (hk1 : (k 1).val = (y 1).val) :
    (iblk0 V c 1 t : Vec Ideal S5000x1 .f32) y = cArr V c k := by
  obtain ⟨-, -, e0, e1, -⟩ := idx_facts t
  unfold iblk0
  rw [View.read_apply]
  show V c main_v10 _ = V c main_v10 _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 1 + 1 * (y 1).val = (k 1).val; rw [e1, hk1]; omega

/-- The weight's block at every point is the whole weight. -/
theorem wblk_eq (c : Dev nD) (t : Fin cfg0.N) :
    (iblk0 V c 2 t : Vec Ideal S256x128 .f32) = wArr V c := by
  obtain ⟨-, -, -, -, e0, e1, -⟩ := idx_facts t
  funext y
  unfold iblk0
  rw [View.read_apply]
  show V c main_arg1 _ = V c main_arg1 _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 128 + 1 * (y 1).val = (y 1).val; rw [e1]; omega

/-- One entry of a block of the product. When the blocks x0 and x1 are rows 5000 n … of x and of s, the body's result
    at (a, b) of its block is the product's entry at (5000 n + a, b): the same sum over k, term by term. -/
theorem pay_entry (n : Nat) (x : S100000x256.Idx → EReal) (s : S100000x1.Idx → EReal) (w : S256x128.Idx → EReal)
    (x0 : Vec Ideal S5000x256 .f32) (x1 : Vec Ideal S5000x1 .f32)
    (hx : ∀ (y : S5000x256.Idx) (k : S100000x256.Idx), (k 0).val = n * 5000 + (y 0).val → (k 1).val = (y 1).val → x0 y = x k)
    (hs : ∀ (y : S5000x1.Idx) (k : S100000x1.Idx), (k 0).val = n * 5000 + (y 0).val → (k 1).val = (y 1).val → x1 y = s k)
    (j : S5000x128.Idx) (i : S100000x128.Idx) (hi0 : (i 0).val = n * 5000 + (j 0).val) (hi1 : (i 1).val = (j 1).val) :
    k0_pay1 (F := Ideal) x0 x1 w j = rowsTimesWeight x s w i := by
  obtain ⟨a, b, rfl⟩ : ∃ a b, j = ix2 a b := ⟨j 0, j 1, eq_ix2 j⟩
  rw [Payload.pay0_apply]
  unfold rowsTimesWeight
  refine Finset.sum_congr rfl fun k _ => ?_
  rw [hx (ix2 a k) (ix2 (i 0 : Fin 100000) k) hi0 rfl, hs (ix2 a (0 : Fin 1)) (ix2 (i 0 : Fin 100000) (0 : Fin 1)) hi0 rfl]
  have hb : (i 1 : Fin 128) = b := Fin.ext hi1
  rw [hb]

/-! ## From blocks to the array -/

/-- What point t writes back is block t of the product of the arrays as the region finds them. -/
theorem flushed_eq (c : Dev nD) (t : Fin cfg0.N) :
    (dat0 (F := Ideal) V c).flushed 3 t
      = ((cfg0.win 3).blk t).view.read (Elt Ideal) (rowsTimesWeight (xArr V c) (cArr V c) (wArr V c)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  rw [wblk_eq]
  obtain ⟨-, -, -, -, -, -, e0, e1⟩ := idx_facts t
  funext j
  show k0_pay1 (F := Ideal) (iblk0 V c 0 t) (iblk0 V c 1 t) (wArr V c) j
    = rowsTimesWeight (xArr V c) (cArr V c) (wArr V c) (((cfg0.win 3).blk t).view.emb j)
  refine pay_entry t.val (xArr V c) (cArr V c) (wArr V c) _ _ (xblk_apply V c t) (cblk_apply V c t) j _ ?_ ?_
  · show win0_3.index t (0 : Fin 2) * 5000 + 1 * (j 0).val = _
    rw [e0]; omega
  · show win0_3.index t (1 : Fin 2) * 128 + 1 * (j 1).val = _
    rw [e1]; omega

/-- An index of the result is in point t's block iff each coordinate is in the block's range on its axis. -/
theorem mem_blk (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v15).slice (win0_3.rect t)).set ↔ _
  rw [View.set_slice_whole, Rect.mem_set_unit]
  exact Iff.rfl

/-- The 20 blocks tile the result: row r is in the block of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The array the result's window ends at is the product of the arrays as the region finds them. -/
theorem final (c : Dev nD) : outArr V c = rowsTimesWeight (xArr V c) (cArr V c) (wArr V c) :=
  (dat0 (F := Ideal) V c).arrAt_eq_of_cover 3 (rowsTimesWeight (xArr V c) (cArr V c) (wArr V c))
    (fun t _ => flushed_eq V c t) cover

/-- The array window 3 ends at, entry (p, q): row p of the scaled input against column q of the weight. -/
theorem value (c : Dev nD) (p : Fin 100000) (q : Fin 128) :
    outArr V c (ix2 p q) = ∑ k : Fin 256, (xArr V c (ix2 p k) * cArr V c (ix2 p (0 : Fin 1))) * wArr V c (ix2 k q) := by
  rw [final]
  rfl

end Cert.KernelIdeal.Region0

end
-- ==== Proof.HostStretch.lean ====
/-
  The host operations between the pipelines, read back.

  Each of the four stretches of host operations is run from an arbitrary valuation `W` of the buffers. What a stretch
  leaves in the buffers a later pipeline or stretch reads is, operation for operation, a stage of the reference program
  applied to the stretch's own inputs: the reciprocal square roots of the clamped degrees (a scatter-add of ones by an
  index list), the gather of a transformed array by the source indices followed by the scatter-add by the destination
  indices, the per-graph node counts, and the final quotient. Reshapes of the arguments into rows and columns are kept
  as the casts they are. A buffer no operation of a stretch writes keeps its contents.
-/
import proofs.«419733_j37726992728419_3_alg».proof.Proof.KernelIdealLaunch
import proofs.«419733_j37726992728419_3_alg».proof.Proof.Gen.ReferenceIdeal.Read
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen
open Cert.ReferenceIdeal.Read (val_main_v9 val_main_v12 val_main_v22 val_main_v24 val_main_v25 val_main_v43 val_main_v45
  val_main_v46 val_main_v64)

variable {F : FTy → Type} [FloatOps F] (W : Valuation τ sig (Elt F))

/-! ## The first stretch: the two columns of row scales -/

/-- The column of out-degree scales is the reference's vector of them, cast to a column. -/
theorem s0_v10 : StableHlo.after hostOps0 W (Proc.devRef .tc main_v10)
    = (fun i => shapeCast S100000x1 (val_main_v9 (F := F) (W (Proc.devRef .tc main_arg5))) shapeCasts_S100000_S100000x1 i) := by
  after_results; rfl

/-- The column of in-degree scales is the reference's vector of them, cast to a column. -/
theorem s0_v14 : StableHlo.after hostOps0 W (Proc.devRef .tc main_v14)
    = (fun i => shapeCast S100000x1 (val_main_v12 (F := F) (W (Proc.devRef .tc main_arg6))) shapeCasts_S100000_S100000x1 i) := by
  after_results; rfl

theorem s0_arg0 : StableHlo.after hostOps0 W (Proc.devRef .tc main_arg0) = W (Proc.devRef .tc main_arg0) := by after_results
theorem s0_arg1 : StableHlo.after hostOps0 W (Proc.devRef .tc main_arg1) = W (Proc.devRef .tc main_arg1) := by after_results
theorem s0_arg2 : StableHlo.after hostOps0 W (Proc.devRef .tc main_arg2) = W (Proc.devRef .tc main_arg2) := by after_results
theorem s0_arg3 : StableHlo.after hostOps0 W (Proc.devRef .tc main_arg3) = W (Proc.devRef .tc main_arg3) := by after_results
theorem s0_arg4 : StableHlo.after hostOps0 W (Proc.devRef .tc main_arg4) = W (Proc.devRef .tc main_arg4) := by after_results
theorem s0_arg5 : StableHlo.after hostOps0 W (Proc.devRef .tc main_arg5) = W (Proc.devRef .tc main_arg5) := by after_results
theorem s0_arg6 : StableHlo.after hostOps0 W (Proc.devRef .tc main_arg6) = W (Proc.devRef .tc main_arg6) := by after_results
theorem s0_arg7 : StableHlo.after hostOps0 W (Proc.devRef .tc main_arg7) = W (Proc.devRef .tc main_arg7) := by after_results

/-! ## The second stretch: layer 1's neighbour sums, and the first bias as a row -/

/-- Gather the rows of a [100000, 128] array `u` by the (wrapped) source indices, widen, and scatter-add them by the destination
    indices into zeros: the reference's own gather and scatter-add, at any array in the place of its transformed input. -/
def agg128 (u : FVec F S100000x128 .bf16) (x5 x6 : IVec S1600000 32) : FVec F S100000x128 .f32 :=
  Host.scatterAdd Cert.ReferenceIdeal.scatter_S100000x128_S1600000x1_S1600000x128_1_0_0_1 (val_main_v24 (F := F)) (val_main_v25 (F := F) x6)
    (extf .f32 (Host.gather Cert.ReferenceIdeal.gather_S100000x128_S1600000x1_S1600000x128_1_0_n_n_0_1_1128 u (val_main_v22 (F := F) x5)) bitsLt_bf16_f32)

theorem s1_v26 : StableHlo.after hostOps1 W (Proc.devRef .tc main_v26)
    = agg128 (W (Proc.devRef .tc main_v15)) (W (Proc.devRef .tc main_arg5)) (W (Proc.devRef .tc main_arg6)) := by
  after_results; rfl

theorem s1_v27 : StableHlo.after hostOps1 W (Proc.devRef .tc main_v27)
    = (fun i => shapeCast S1x128 (W (Proc.devRef .tc main_arg2)) shapeCasts_S128_S1x128 i) := by
  after_results; rfl

theorem s1_v10 : StableHlo.after hostOps1 W (Proc.devRef .tc main_v10) = W (Proc.devRef .tc main_v10) := by after_results
theorem s1_v14 : StableHlo.after hostOps1 W (Proc.devRef .tc main_v14) = W (Proc.devRef .tc main_v14) := by after_results
theorem s1_arg3 : StableHlo.after hostOps1 W (Proc.devRef .tc main_arg3) = W (Proc.devRef .tc main_arg3) := by after_results
theorem s1_arg4 : StableHlo.after hostOps1 W (Proc.devRef .tc main_arg4) = W (Proc.devRef .tc main_arg4) := by after_results
theorem s1_arg5 : StableHlo.after hostOps1 W (Proc.devRef .tc main_arg5) = W (Proc.devRef .tc main_arg5) := by after_results
theorem s1_arg6 : StableHlo.after hostOps1 W (Proc.devRef .tc main_arg6) = W (Proc.devRef .tc main_arg6) := by after_results
theorem s1_arg7 : StableHlo.after hostOps1 W (Proc.devRef .tc main_arg7) = W (Proc.devRef .tc main_arg7) := by after_results

/-! ## The third stretch: layer 2's neighbour sums, the graph words as a column, the second bias as a row -/

/-- Gather the rows of a [100000, 8] array `u` by the (wrapped) source indices and scatter-add them by the destination indices
    into zeros: the reference's own gather and scatter-add, at any array in the place of its transformed input. -/
def agg8 (u : FVec F S100000x8 .f32) (x5 x6 : IVec S1600000 32) : FVec F S100000x8 .f32 :=
  Host.scatterAdd Cert.ReferenceIdeal.scatter_S100000x8_S1600000x1_S1600000x8_1_0_0_1 (val_main_v45 (F := F)) (val_main_v46 (F := F) x6)
    (Host.gather Cert.ReferenceIdeal.gather_S100000x8_S1600000x1_S1600000x8_1_0_n_n_0_1_18 u (val_main_v43 (F := F) x5))

theorem s2_v38 : StableHlo.after hostOps2 W (Proc.devRef .tc main_v38)
    = agg8 (W (Proc.devRef .tc main_v28)) (W (Proc.devRef .tc main_arg5)) (W (Proc.devRef .tc main_arg6)) := by
  after_results; rfl

theorem s2_v39 : StableHlo.after hostOps2 W (Proc.devRef .tc main_v39)
    = (fun i => shapeCast S100000x1 (W (Proc.devRef .tc main_arg7)) shapeCasts_S100000_S100000x1 i) := by
  after_results; rfl

theorem s2_v40 : StableHlo.after hostOps2 W (Proc.devRef .tc main_v40)
    = (fun i => shapeCast S1x8 (W (Proc.devRef .tc main_arg4)) shapeCasts_S8_S1x8 i) := by
  after_results; rfl

theorem s2_v14 : StableHlo.after hostOps2 W (Proc.devRef .tc main_v14) = W (Proc.devRef .tc main_v14) := by after_results
theorem s2_arg7 : StableHlo.after hostOps2 W (Proc.devRef .tc main_arg7) = W (Proc.devRef .tc main_arg7) := by after_results

/-! ## The last stretch: the quotient by the clamped node counts -/

theorem s3_v50 : StableHlo.after hostOps3 W (Proc.devRef .tc main_v50)
    = Host.divf (W (Proc.devRef .tc main_v41)) (val_main_v64 (F := F) (W (Proc.devRef .tc main_arg7))) := by
  after_results; rfl

end Cert.KernelIdeal.Stretch

end
-- ==== Proof.Bridge1.lean ====
/-
  Layer 1 of the kernel program is layer 1 of the reference.

  When the first pipeline is entered, the input and the weight are the launch arguments and the column of row scales is the
  reference's vector of out-degree scales written as a column. The pipeline's result at (p, q) is the sum over k of
  (x (p, k) · scale p) · w (k, q), which is the reference's matrix product of the row-scaled input with the weight, read at
  the same index. After the pipeline, every array it did not write is as it was.
-/
import proofs.«419733_j37726992728419_3_alg».proof.Proof.KernelIdealFrame
import proofs.«419733_j37726992728419_3_alg».proof.Proof.Region0
import proofs.«419733_j37726992728419_3_alg».proof.Proof.HostStretch
import proofs.«419733_j37726992728419_3_alg».proof.Proof.LibColumn
import Idealize.ShloMosaic.Lib.ValueIdx

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- The eight argument arrays as launched, at their literal types. -/
abbrev x0 : S100000x256.Idx → EReal := m ((c : Thread nD τ).loc main_arg0)
abbrev x1 : S256x128.Idx → EReal := m ((c : Thread nD τ).loc main_arg1)
abbrev x2 : S128.Idx → EReal := m ((c : Thread nD τ).loc main_arg2)
abbrev x3 : S128x8.Idx → EReal := m ((c : Thread nD τ).loc main_arg3)
abbrev x4 : S8.Idx → EReal := m ((c : Thread nD τ).loc main_arg4)
abbrev x5 : S1600000.Idx → BitVec 32 := m ((c : Thread nD τ).loc main_arg5)
abbrev x6 : S1600000.Idx → BitVec 32 := m ((c : Thread nD τ).loc main_arg6)
abbrev x7 : S100000.Idx → BitVec 32 := m ((c : Thread nD τ).loc main_arg7)

/-! ## At the first pipeline's entry -/

/-- The column of out-degree scales, read at row p. -/
theorem W1_v10_apply (p : Fin 100000) :
    (W1 m ρ c (Proc.devRef .tc main_v10) : S100000x1.Idx → EReal) (ix2 p (0 : Fin 1)) = val_main_v9 (F := Ideal) (x5 m c) (ix1 p) := by
  rw [show (W1 m ρ c (Proc.devRef .tc main_v10) : S100000x1.Idx → EReal) = _ from Stretch.s0_v10 (W0 m ρ c)]
  exact Cert.LibColumn.shapeCast_a_a1_apply _ _ p 0

/-- The column of in-degree scales, read at row p. -/
theorem W1_v14_apply (p : Fin 100000) :
    (W1 m ρ c (Proc.devRef .tc main_v14) : S100000x1.Idx → EReal) (ix2 p (0 : Fin 1)) = val_main_v12 (F := Ideal) (x6 m c) (ix1 p) := by
  rw [show (W1 m ρ c (Proc.devRef .tc main_v14) : S100000x1.Idx → EReal) = _ from Stretch.s0_v14 (W0 m ρ c)]
  exact Cert.LibColumn.shapeCast_a_a1_apply _ _ p 0

theorem W1_arg0 : W1 m ρ c (Proc.devRef .tc main_arg0) = x0 m c := Stretch.s0_arg0 (W0 m ρ c)
theorem W1_arg1 : W1 m ρ c (Proc.devRef .tc main_arg1) = x1 m c := Stretch.s0_arg1 (W0 m ρ c)
theorem W1_arg2 : W1 m ρ c (Proc.devRef .tc main_arg2) = x2 m c := Stretch.s0_arg2 (W0 m ρ c)
theorem W1_arg3 : W1 m ρ c (Proc.devRef .tc main_arg3) = x3 m c := Stretch.s0_arg3 (W0 m ρ c)
theorem W1_arg4 : W1 m ρ c (Proc.devRef .tc main_arg4) = x4 m c := Stretch.s0_arg4 (W0 m ρ c)
theorem W1_arg5 : W1 m ρ c (Proc.devRef .tc main_arg5) = x5 m c := Stretch.s0_arg5 (W0 m ρ c)
theorem W1_arg6 : W1 m ρ c (Proc.devRef .tc main_arg6) = x6 m c := Stretch.s0_arg6 (W0 m ρ c)
theorem W1_arg7 : W1 m ρ c (Proc.devRef .tc main_arg7) = x7 m c := Stretch.s0_arg7 (W0 m ρ c)

/-! ## Layer 1 -/

/-- The first pipeline's input, weight and column of row scales as it finds them. -/
theorem r0_x : Region0.xArr (V1 m ρ) c = x0 m c := W1_arg0 m ρ c
theorem r0_w : Region0.wArr (V1 m ρ) c = x1 m c := W1_arg1 m ρ c
theorem r0_c (p : Fin 100000) : Region0.cArr (V1 m ρ) c (ix2 p (0 : Fin 1)) = val_main_v9 (F := Ideal) (x5 m c) (ix1 p) :=
  W1_v10_apply m ρ c p

/-- The first pipeline's result is the reference's product of the row-scaled input with the first weight. -/
theorem layer1 : Region0.outArr (V1 m ρ) c = val_main_v16 (F := Ideal) (x0 m c) (x1 m c) (x5 m c) := by
  funext i
  obtain ⟨p, q, rfl⟩ : ∃ (p : Fin 100000) (q : Fin 128), i = ix2 p q := ⟨i 0, i 1, eq_ix2 i⟩
  rw [Region0.value, val_main_v16_apply]
  refine Finset.sum_congr rfl fun k _ => ?_
  have hl : lidx_main_v16 (ix2 p q) k = ix2 p k := by
    funext a; match a with | ⟨0, _⟩ => rfl | ⟨1, _⟩ => rfl
  have hr : ridx_main_v16 (ix2 p q) k = ix2 k q := by
    funext a; match a with | ⟨0, _⟩ => rfl | ⟨1, _⟩ => rfl
  have h13 : idx_main_v13 (idx_main_v14 (ix2 p k)) = ix1 p := by
    funext a; match a with | ⟨0, _⟩ => rfl
  rw [hl, hr, val_main_v15_apply, val_main_v14_apply, val_main_v13_apply, h13]
  rw [r0_x, r0_w, r0_c]
  rfl

end Cert.KernelIdeal.Bridge

end
-- ==== Proof.Region1.lean ====
/-
  Layer 2's fused bias, rectifier and transform, as the array the second pipeline leaves.

  The grid's point t writes rows [5000 t, 5000 t + 5000) of the [100000, 8] result from the same rows of the
  aggregate and of the two columns of row scales, and the whole bias row and [128, 8] weight; the 20 blocks tile the
  result. So the result at (p, q) is the sum over k of (max (a (p, k) · cᵢ (p, 0) + b (0, k)) 0 · cₒ (p, 0)) · w (k, q).
-/
import proofs.«419733_j37726992728419_3_alg».proof.Proof.KernelIdealFrame
import proofs.«419733_j37726992728419_3_alg».proof.Proof.Payload
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

/-- The region's arrays at their literal types: the aggregate, the two columns of row scales, the bias row and the weight
    as the region finds them, and the result as the pipeline leaves it. -/
abbrev aArr (c : Dev nD) : S100000x128.Idx → EReal := V c main_v26
abbrev ciArr (c : Dev nD) : S100000x1.Idx → EReal := V c main_v14
abbrev coArr (c : Dev nD) : S100000x1.Idx → EReal := V c main_v10
abbrev bArr (c : Dev nD) : S1x128.Idx → EReal := V c main_v27
abbrev wArr (c : Dev nD) : S128x8.Idx → EReal := V c main_arg3
abbrev outArr (c : Dev nD) : S100000x8.Idx → EReal := (dat1 (F := Ideal) V c).arrAt 5 cfg1.N

/-! ## The layer as one function of the arrays -/

/-- Entry (p, q) of the layer: the rectified, biased and scaled row p of the aggregate against column q of the weight. -/
def layerAt (a : S100000x128.Idx → EReal) (ci co : S100000x1.Idx → EReal) (b : S1x128.Idx → EReal)
    (w : S128x8.Idx → EReal) (p : Fin 100000) (q : Fin 8) : EReal :=
  ∑ k : Fin 128, (max (a (ix2 p k) * ci (ix2 p (0 : Fin 1)) + b (ix2 (0 : Fin 1) k)) 0 * co (ix2 p (0 : Fin 1))) * w (ix2 k q)

/-- The whole [100000, 8] layer. -/
def layer (a : S100000x128.Idx → EReal) (ci co : S100000x1.Idx → EReal) (b : S1x128.Idx → EReal)
    (w : S128x8.Idx → EReal) : S100000x8.Idx → EReal :=
  fun i => layerAt a ci co b w (i 0) (i 1)

/-- The offsets of a whole-block access are zero on both axes. -/
theorem zero_offsets : (![0, 0] : Fin 2 → Nat) = fun _ => 0 := funext fun a => by fin_cases a <;> rfl

/-- The body's arithmetic at any index of the [5000, 8] block, by its coordinates. -/
theorem block_entry (x0 : Vec Ideal S5000x128 .f32) (x1 x2 : Vec Ideal S5000x1 .f32) (x3 : Vec Ideal S1x128 .f32)
    (x4 : Vec Ideal S128x8 .f32) (j : S5000x8.Idx) :
    k1_pay1 (F := Ideal) x0 x1 x3 x2 x4 j
      = ∑ k : Fin 128, (max (x0 (ix2 (j 0) k) * x1 (ix2 (j 0) (0 : Fin 1)) + x3 (ix2 (0 : Fin 1) k)) 0
          * x2 (ix2 (j 0) (0 : Fin 1))) * x4 (ix2 k (j 1)) := by
  obtain ⟨p, q, rfl⟩ : ∃ (p : Fin 5000) (q : Fin 8), j = ix2 p q := ⟨j 0, j 1, eq_ix2 j⟩
  exact Payload.pay1_apply x0 x1 x3 x2 x4 p q

/-- The windows' index maps, decided over the grid: the row-blocked windows sit at block (t, 0), the resident ones at (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000 t … 5000 t + 4999 of the aggregate. -/
theorem a_rows (c : Dev nD) (t : Fin cfg1.N) (y : S5000x128.Idx) (i : S100000x128.Idx)
    (h0 : (i 0).val = t.val * 5000 + (y 0).val) (h1 : (i 1).val = (y 1).val) :
    (iblk1 (F := Ideal) V c 0 t : Vec Ideal S5000x128 .f32) y = aArr V c i := by
  obtain ⟨e0, e1, -⟩ := index_facts t
  show V c main_v26 (((cfg1.win 0).blk t).view.emb y) = V c main_v26 i
  congr 1
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Window 1's block at point t is the same rows of the inner column of row scales. -/
theorem ci_rows (c : Dev nD) (t : Fin cfg1.N) (y : S5000x1.Idx) (i : S100000x1.Idx)
    (h0 : (i 0).val = t.val * 5000 + (y 0).val) :
    (iblk1 (F := Ideal) V c 1 t : Vec Ideal S5000x1 .f32) y = ciArr V c i := by
  obtain ⟨-, -, e0, e1, -⟩ := index_facts t
  show V c main_v14 (((cfg1.win 1).blk t).view.emb y) = V c main_v14 i
  congr 1
  funext a
  apply Fin.ext
  match a with
  | ⟨0, _⟩ => show win1_1.index t (0 : Fin 2) * 5000 + 1 * (y 0).val = (i 0).val; omega
  | ⟨1, _⟩ =>
    show win1_1.index t (1 : Fin 2) * 1 + 1 * (y 1).val = (i 1).val
    have hy : (y 1).val < 1 := (y 1).isLt
    have hi : (i 1).val < 1 := (i 1).isLt
    omega

/-- Window 2's block at point t is the same rows of the outer column of row scales. -/
theorem co_rows (c : Dev nD) (t : Fin cfg1.N) (y : S5000x1.Idx) (i : S100000x1.Idx)
    (h0 : (i 0).val = t.val * 5000 + (y 0).val) :
    (iblk1 (F := Ideal) V c 2 t : Vec Ideal S5000x1 .f32) y = coArr V c i := by
  obtain ⟨-, -, -, -, e0, e1, -⟩ := index_facts t
  show V c main_v10 (((cfg1.win 2).blk t).view.emb y) = V c main_v10 i
  congr 1
  funext a
  apply Fin.ext
  match a with
  | ⟨0, _⟩ => show win1_2.index t (0 : Fin 2) * 5000 + 1 * (y 0).val = (i 0).val; omega
  | ⟨1, _⟩ =>
    show win1_2.index t (1 : Fin 2) * 1 + 1 * (y 1).val = (i 1).val
    have hy : (y 1).val < 1 := (y 1).isLt
    have hi : (i 1).val < 1 := (i 1).isLt
    omega

/-- Window 3's block at every point is the whole bias row. -/
theorem b_whole (c : Dev nD) (t : Fin cfg1.N) (y : S1x128.Idx) :
    (iblk1 (F := Ideal) V c 3 t : Vec Ideal S1x128 .f32) y = bArr V c y := by
  obtain ⟨-, -, -, -, -, -, e0, e1, -⟩ := index_facts t
  show V c main_v27 (((cfg1.win 3).blk t).view.emb y) = V c main_v27 y
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block at every point is the whole weight. -/
theorem w_whole (c : Dev nD) (t : Fin cfg1.N) (y : S128x8.Idx) :
    (iblk1 (F := Ideal) V c 4 t : Vec Ideal S128x8 .f32) y = wArr V c y := by
  obtain ⟨-, -, -, -, -, -, -, -, e0, e1, -⟩ := index_facts t
  show V c main_arg3 (((cfg1.win 4).blk t).view.emb y) = V c main_arg3 y
  congr 1
  funext a
  apply Fin.ext
  match a with
  | ⟨0, _⟩ => show win1_4.index t (0 : Fin 2) * 128 + 1 * (y 0).val = (y 0).val; omega
  | ⟨1, _⟩ => show win1_4.index t (1 : Fin 2) * 8 + 1 * (y 1).val = (y 1).val; omega

/-- What point t writes back is block t of the layer. -/
theorem flushed_eq (c : Dev nD) (t : Fin cfg1.N) :
    (dat1 (F := Ideal) V c).flushed 5 t
      = ((cfg1.win 5).blk t).view.read (Elt Ideal) (layer (aArr V c) (ciArr V c) (coArr V c) (bArr V c) (wArr V c)) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S5000x1) zero_offsets,
    View.ld_unit_zero (S := S1x128) zero_offsets, View.ld_unit_zero (S := S128x8) zero_offsets]
  funext j
  show k1_pay1 (F := Ideal) (iblk1 V c 0 t) (iblk1 V c 1 t) (iblk1 V c 3 t) (iblk1 V c 2 t) (iblk1 V c 4 t) j
      = layer (aArr V c) (ciArr V c) (coArr V c) (bArr V c) (wArr V c) (((cfg1.win 5).blk t).view.emb j)
  refine (block_entry _ _ _ _ _ j).trans ?_
  obtain ⟨-, -, -, -, -, -, -, -, -, -, e0, e1⟩ := index_facts t
  obtain ⟨P, Q, hE⟩ : ∃ (P : Fin 100000) (Q : Fin 8), ((cfg1.win 5).blk t).view.emb j = ix2 P Q :=
    ⟨_, _, eq_ix2 _⟩
  have hP : P.val = t.val * 5000 + (j 0).val := by
    have h : win1_5.index t (0 : Fin 2) * 5000 + 1 * (j 0).val = P.val := congrArg (fun e => (e 0).val) hE
    omega
  have hQ : Q = j 1 := by
    apply Fin.ext
    have h : win1_5.index t (1 : Fin 2) * 8 + 1 * (j 1).val = Q.val := congrArg (fun e => (e 1).val) hE
    show Q.val = (j 1).val
    omega
  rw [hE]
  show _ = layerAt _ _ _ _ _ P Q
  unfold layerAt
  refine Finset.sum_congr rfl fun k _ => ?_
  rw [a_rows V c t (ix2 (j 0) k) (ix2 P k) hP rfl, ci_rows V c t (ix2 (j 0) (0 : Fin 1)) (ix2 P (0 : Fin 1)) hP,
    co_rows V c t (ix2 (j 0) (0 : Fin 1)) (ix2 P (0 : Fin 1)) hP, b_whole V c t (ix2 (0 : Fin 1) k),
    w_whole V c t (ix2 k (j 1)), hQ]

/-- An index of the result is in point t's block iff each coordinate is in the block's range on its axis. -/
theorem mem_block (t : Fin cfg1.N) (i : S100000x8.Idx) :
    i ∈ ((cfg1.win 5).blk t).view.set
      ↔ ∀ a : Fin 2, win1_5.index t a * S5000x8.size a ≤ (i a).val
          ∧ (i a).val < win1_5.index t a * S5000x8.size a + S5000x8.size a := by
  show i ∈ ((View.whole main_v28).slice (win1_5.rect t)).set ↔ _
  rw [View.set_slice_whole, Rect.mem_set_unit]
  exact Iff.rfl

/-- The 20 row blocks tile the result: row r lies in the block of point r / 5000. -/
theorem covered (i : S100000x8.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 8 := (i 1).isLt
  obtain ⟨t, ht⟩ : ∃ t : Fin cfg1.N, t.val = (i 0).val / 5000 := ⟨⟨(i 0).val / 5000, by omega⟩, rfl⟩
  obtain ⟨-, -, -, -, -, -, -, -, -, -, e0, e1⟩ := index_facts t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 8 ≤ (i 1).val ∧ (i 1).val < win1_5.index t (1 : Fin 2) * 8 + 8
    omega

/-- The result array after the run is the layer of the arrays the region found. -/
theorem final (c : Dev nD) :
    outArr V c = layer (aArr V c) (ciArr V c) (coArr V c) (bArr V c) (wArr V c) :=
  (dat1 (F := Ideal) V c).arrAt_eq_of_cover 5 _ (fun t _ => flushed_eq V c t) covered

/-- The array window 5 ends at, entry (p, q). -/
theorem value (c : Dev nD) (p : Fin 100000) (q : Fin 8) :
    outArr V c (ix2 p q)
      = ∑ k : Fin 128, (max (aArr V c (ix2 p k) * ciArr V c (ix2 p (0 : Fin 1)) + bArr V c (ix2 (0 : Fin 1) k)) 0
          * coArr V c (ix2 p (0 : Fin 1))) * wArr V c (ix2 k q) := by
  rw [final]
  rfl

end Cert.KernelIdeal.Region1

end
-- ==== Proof.Bridge2.lean ====
/-
  Layer 2 of the kernel program is layer 2 of the reference.

  After the first pipeline its result holds the reference's layer-1 transform, so the host operations that follow leave the
  reference's layer-1 neighbour sums (the same gather by source index and scatter-add by destination index, applied to equal
  arrays; widening a rounded float changes nothing at the ideal instance). The second pipeline then computes, at (p, q), the
  sum over k of (max (s (p, k) · scaleᵢ p + b k) 0 · scaleₒ p) · w (k, q): the reference's bias, rectifier, row scaling and
  matrix product, read at the same index.
-/
import proofs.«419733_j37726992728419_3_alg».proof.Proof.Bridge1
import proofs.«419733_j37726992728419_3_alg».proof.Proof.Region1
import Idealize.ShloMosaic.Lib.ValueLayout

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-! ## After the first pipeline -/

theorem W2_v15 : (W2 m ρ c (Proc.devRef .tc main_v15) : S100000x128.Idx → EReal)
    = val_main_v16 (F := Ideal) (x0 m c) (x1 m c) (x5 m c) :=
  (W2_arr m ρ c 3).trans (layer1 m ρ c)

theorem W2_v10 : W2 m ρ c (Proc.devRef .tc main_v10) = W1 m ρ c (Proc.devRef .tc main_v10) :=
  (W2_arr m ρ c 1).trans (((dat0 (V1 m ρ) c).arrAt_in 1 rfl _).trans (A_eq0 (V1 m ρ) c 1))
theorem W2_v14 : W2 m ρ c (Proc.devRef .tc main_v14) = W1 m ρ c (Proc.devRef .tc main_v14) := W2_of_ne m ρ c main_v14 (by decide)
theorem W2_arg2 : W2 m ρ c (Proc.devRef .tc main_arg2) = x2 m c := (W2_of_ne m ρ c main_arg2 (by decide)).trans (W1_arg2 m ρ c)
theorem W2_arg3 : W2 m ρ c (Proc.devRef .tc main_arg3) = x3 m c := (W2_of_ne m ρ c main_arg3 (by decide)).trans (W1_arg3 m ρ c)
theorem W2_arg4 : W2 m ρ c (Proc.devRef .tc main_arg4) = x4 m c := (W2_of_ne m ρ c main_arg4 (by decide)).trans (W1_arg4 m ρ c)
theorem W2_arg5 : W2 m ρ c (Proc.devRef .tc main_arg5) = x5 m c := (W2_of_ne m ρ c main_arg5 (by decide)).trans (W1_arg5 m ρ c)
theorem W2_arg6 : W2 m ρ c (Proc.devRef .tc main_arg6) = x6 m c := (W2_of_ne m ρ c main_arg6 (by decide)).trans (W1_arg6 m ρ c)
theorem W2_arg7 : W2 m ρ c (Proc.devRef .tc main_arg7) = x7 m c := (W2_of_ne m ρ c main_arg7 (by decide)).trans (W1_arg7 m ρ c)

/-! ## At the second pipeline's entry -/

/-- At the ideal instance, the kernel program's layer-1 neighbour sums of the reference's transform are the reference's. -/
theorem agg128_ref (y0 : S100000x256.Idx → EReal) (y1 : S256x128.Idx → EReal) (y5 y6 : S1600000.Idx → BitVec 32) :
    Stretch.agg128 (F := Ideal) (val_main_v16 (F := Ideal) y0 y1 y5) y5 y6 = val_main_v26 (F := Ideal) y0 y1 y5 y6 := rfl

theorem W3_v26 : (W3 m ρ c (Proc.devRef .tc main_v26) : S100000x128.Idx → EReal)
    = val_main_v26 (F := Ideal) (x0 m c) (x1 m c) (x5 m c) (x6 m c) := by
  rw [show (W3 m ρ c (Proc.devRef .tc main_v26) : S100000x128.Idx → EReal) = _ from Stretch.s1_v26 (W2 m ρ c)]
  rw [W2_v15, W2_arg5, W2_arg6]
  exact agg128_ref _ _ _ _

/-- The first bias as a row, read at column k. -/
theorem W3_v27_apply (k : Fin 128) :
    (W3 m ρ c (Proc.devRef .tc main_v27) : S1x128.Idx → EReal) (ix2 (0 : Fin 1) k) = x2 m c (ix1 k) := by
  rw [show (W3 m ρ c (Proc.devRef .tc main_v27) : S1x128.Idx → EReal) = _ from Stretch.s1_v27 (W2 m ρ c), W2_arg2]
  exact shapeCast_a_1a_apply _ _ 0 k

theorem W3_v10 : W3 m ρ c (Proc.devRef .tc main_v10) = W1 m ρ c (Proc.devRef .tc main_v10) :=
  (Stretch.s1_v10 (W2 m ρ c)).trans (W2_v10 m ρ c)
theorem W3_v14 : W3 m ρ c (Proc.devRef .tc main_v14) = W1 m ρ c (Proc.devRef .tc main_v14) :=
  (Stretch.s1_v14 (W2 m ρ c)).trans (W2_v14 m ρ c)
theorem W3_arg3 : W3 m ρ c (Proc.devRef .tc main_arg3) = x3 m c := (Stretch.s1_arg3 (W2 m ρ c)).trans (W2_arg3 m ρ c)
theorem W3_arg4 : W3 m ρ c (Proc.devRef .tc main_arg4) = x4 m c := (Stretch.s1_arg4 (W2 m ρ c)).trans (W2_arg4 m ρ c)
theorem W3_arg5 : W3 m ρ c (Proc.devRef .tc main_arg5) = x5 m c := (Stretch.s1_arg5 (W2 m ρ c)).trans (W2_arg5 m ρ c)
theorem W3_arg6 : W3 m ρ c (Proc.devRef .tc main_arg6) = x6 m c := (Stretch.s1_arg6 (W2 m ρ c)).trans (W2_arg6 m ρ c)
theorem W3_arg7 : W3 m ρ c (Proc.devRef .tc main_arg7) = x7 m c := (Stretch.s1_arg7 (W2 m ρ c)).trans (W2_arg7 m ρ c)

/-! ## Layer 2 -/

/-- The second pipeline's arrays as it finds them. -/
theorem r1_a : Region1.aArr (V3 m ρ) c = val_main_v26 (F := Ideal) (x0 m c) (x1 m c) (x5 m c) (x6 m c) := W3_v26 m ρ c
theorem r1_w : Region1.wArr (V3 m ρ) c = x3 m c := W3_arg3 m ρ c
theorem r1_ci (p : Fin 100000) : Region1.ciArr (V3 m ρ) c (ix2 p (0 : Fin 1)) = val_main_v12 (F := Ideal) (x6 m c) (ix1 p) := by
  rw [show Region1.ciArr (V3 m ρ) c = (W1 m ρ c (Proc.devRef .tc main_v14) : S100000x1.Idx → EReal) from W3_v14 m ρ c]
  exact W1_v14_apply m ρ c p
theorem r1_co (p : Fin 100000) : Region1.coArr (V3 m ρ) c (ix2 p (0 : Fin 1)) = val_main_v9 (F := Ideal) (x5 m c) (ix1 p) := by
  rw [show Region1.coArr (V3 m ρ) c = (W1 m ρ c (Proc.devRef .tc main_v10) : S100000x1.Idx → EReal) from W3_v10 m ρ c]
  exact W1_v10_apply m ρ c p
theorem r1_b (k : Fin 128) : Region1.bArr (V3 m ρ) c (ix2 (0 : Fin 1) k) = x2 m c (ix1 k) := W3_v27_apply m ρ c k

/-- The second pipeline's result is the reference's layer-2 transform. -/
theorem layer2 : Region1.outArr (V3 m ρ) c
    = val_main_v37 (F := Ideal) (x0 m c) (x1 m c) (x2 m c) (x3 m c) (x5 m c) (x6 m c) := by
  funext i
  obtain ⟨p, q, rfl⟩ : ∃ (p : Fin 100000) (q : Fin 8), i = ix2 p q := ⟨i 0, i 1, eq_ix2 i⟩
  rw [Region1.value, val_main_v37_apply]
  refine Finset.sum_congr rfl fun k _ => ?_
  have hl : lidx_main_v37 (ix2 p q) k = ix2 p k := by
    funext a; match a with | ⟨0, _⟩ => rfl | ⟨1, _⟩ => rfl
  have hr : ridx_main_v37 (ix2 p q) k = ix2 k q := by
    funext a; match a with | ⟨0, _⟩ => rfl | ⟨1, _⟩ => rfl
  have h27 : idx_main_v27 (idx_main_v28 (ix2 p k)) = ix1 p := by
    funext a; match a with | ⟨0, _⟩ => rfl
  have h34 : idx_main_v34 (idx_main_v35 (ix2 p k)) = ix1 p := by
    funext a; match a with | ⟨0, _⟩ => rfl
  have h30 : idx_main_v30 (idx_main_v31 (ix2 p k)) = ix1 k := by
    funext a; match a with | ⟨0, _⟩ => rfl
  rw [hl, hr, val_main_v36_apply, val_main_v33_apply, val_main_v32_apply, val_main_v29_apply, val_main_v28_apply,
    val_main_v27_apply, h27, val_main_v31_apply, val_main_v30_apply, h30, val_main_call0_v0_apply, val_main_call0_cst_apply,
    val_main_v35_apply, val_main_v34_apply, h34]
  rw [r1_a, r1_w, r1_ci, r1_co, r1_b]
  show _ = max (_ * _ + _) (Ideal.ofBits .f32 0x00000000#32) * _ * _
  rw [Ideal.ofBits_zero_f32]

/-! ## After the second pipeline -/

theorem W4_v28 : (W4 m ρ c (Proc.devRef .tc main_v28) : S100000x8.Idx → EReal)
    = val_main_v37 (F := Ideal) (x0 m c) (x1 m c) (x2 m c) (x3 m c) (x5 m c) (x6 m c) :=
  (W4_arr m ρ c 5).trans (layer2 m ρ c)

theorem W4_v14 : W4 m ρ c (Proc.devRef .tc main_v14) = W1 m ρ c (Proc.devRef .tc main_v14) :=
  ((W4_arr m ρ c 1).trans (((dat1 (V3 m ρ) c).arrAt_in 1 rfl _).trans (A_eq1 (V3 m ρ) c 1))).trans (W3_v14 m ρ c)
theorem W4_arg4 : W4 m ρ c (Proc.devRef .tc main_arg4) = x4 m c := (W4_of_ne m ρ c main_arg4 (by decide)).trans (W3_arg4 m ρ c)
theorem W4_arg5 : W4 m ρ c (Proc.devRef .tc main_arg5) = x5 m c := (W4_of_ne m ρ c main_arg5 (by decide)).trans (W3_arg5 m ρ c)
theorem W4_arg6 : W4 m ρ c (Proc.devRef .tc main_arg6) = x6 m c := (W4_of_ne m ρ c main_arg6 (by decide)).trans (W3_arg6 m ρ c)
theorem W4_arg7 : W4 m ρ c (Proc.devRef .tc main_arg7) = x7 m c := (W4_of_ne m ρ c main_arg7 (by decide)).trans (W3_arg7 m ρ c)

end Cert.KernelIdeal.Bridge

end
-- ==== Proof.Region2.lean ====
/-
  The pooling sums, as the array the third pipeline leaves.

  The [64, 8] result is ONE block, resident across the grid's 20 points: point 0 resets it to zero, and every point t
  adds, at (g, f), the sum over the 5000 rows r of its block of [word (5000 t + r) = g] · (a (5000 t + r, f) ·
  c (5000 t + r, 0) + b (0, f)); it is written back after the last point. So the result at (g, f) is the sum over the
  20 blocks of the blocks' sums.
-/
import proofs.«419733_j37726992728419_3_alg».proof.Proof.KernelIdealFrame
import proofs.«419733_j37726992728419_3_alg».proof.Proof.Payload
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

/-- Row `5000 * t + r` of the 100000 rows. -/
def row (t : Fin 20) (r : Fin 5000) : Fin 100000 := ⟨5000 * t.val + r.val, by have := t.isLt; have := r.isLt; omega⟩

/-- The region's arrays at their literal types: the aggregate, the column of row scales, the bias row and the column of
    graph words as the region finds them, and the result as the pipeline leaves it. -/
abbrev aArr (c : Dev nD) : S100000x8.Idx → EReal := V c main_v38
abbrev ciArr (c : Dev nD) : S100000x1.Idx → EReal := V c main_v14
abbrev bArr (c : Dev nD) : S1x8.Idx → EReal := V c main_v40
abbrev gArr (c : Dev nD) : S100000x1.Idx → BitVec 32 := V c main_v39
abbrev outArr (c : Dev nD) : S64x8.Idx → EReal := (dat2 (F := Ideal) V c).arrAt 4 cfg2.N

/-! ## What one point leaves in the carried block -/

theorem hz : (![0, 0] : Fin 2 → Nat) = fun _ => 0 := funext fun a => by fin_cases a <;> rfl

/-- A point other than the first: the body's one store covers the block, with the update of the four blocks it loaded
    and of the block as it found it. -/
theorem out_later (c : Dev nD) (i : grid2.Coords)
    (a1 : Memref sig .tc .vmem S5000x8 .f32) (h1 : a1.IsWhole) (a2 : Memref sig .tc .vmem S5000x1 .f32) (h2 : a2.IsWhole)
    (a3 : Memref sig .tc .vmem S1x8 .f32) (h3 : a3.IsWhole) (a4 : Memref sig .tc .vmem S5000x1 .i32) (h4 : a4.IsWhole)
    (a5 : Memref sig .tc .vmem S64x8 .f32) (h5 : a5.IsWhole) (hc : ¬cond2_0 i)
    (x0 : Vec Ideal S5000x8 .f32) (x1 : Vec Ideal S5000x1 .f32) (x2 : Vec Ideal S1x8 .f32) (x3 : Vec Ideal S5000x1 .i32)
    (xo : Vec Ideal S64x8 .f32) :
    out2_B_4 c i a1 h1 a2 h2 a3 h3 a4 h4 a5 h5 hc x0 x1 x2 x3 xo = k2_pay2 x0 x1 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  rw [View.canon_unit_zero hz]
  simp only [View.readAt_eq_ld, h1.read_unread, h2.read_unread, h3.read_unread, h4.read_unread, h5.read_unread,
    View.ld_unit_zero (S := S5000x8) hz, View.ld_unit_zero (S := S5000x1) hz, View.ld_unit_zero (S := S1x8) hz,
    View.ld_unit_zero (S := S64x8) hz]

/-- The first point: the reset stores the zero block, the update loads it back, and its store covers the block. -/
theorem out_first (c : Dev nD) (i : grid2.Coords)
    (a1 : Memref sig .tc .vmem S5000x8 .f32) (h1 : a1.IsWhole) (a2 : Memref sig .tc .vmem S5000x1 .f32) (h2 : a2.IsWhole)
    (a3 : Memref sig .tc .vmem S1x8 .f32) (h3 : a3.IsWhole) (a4 : Memref sig .tc .vmem S5000x1 .i32) (h4 : a4.IsWhole)
    (a5 : Memref sig .tc .vmem S64x8 .f32) (h5 : a5.IsWhole) (hc : cond2_0 i)
    (x0 : Vec Ideal S5000x8 .f32) (x1 : Vec Ideal S5000x1 .f32) (x2 : Vec Ideal S1x8 .f32) (x3 : Vec Ideal S5000x1 .i32) :
    out2_A_4 c i a1 h1 a2 h2 a3 h3 a4 h4 a5 h5 hc x0 x1 x2 x3 = k2_pay2 x0 x1 x2 x3 (k2_pay1 (F := Ideal)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S64x8) hz]
  simp only [View.readAt_eq_ld, h1.read_unread, h2.read_unread, h3.read_unread, h4.read_unread,
    View.ld_unit_zero (S := S5000x8) hz, View.ld_unit_zero (S := S5000x1) hz, View.ld_unit_zero (S := S1x8) hz,
    View.readCov_unit_zero (S := S64x8) _ hz]

/-! ## The blocks a point loads, read off their arrays -/

/-- The printed index maps, decided once over the grid: the three row-blocked windows are at block (t, 0) at point t,
    the bias row and the result at block (0, 0) throughout. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

/-- The four blocks point `t` loads, at their literal types. -/
abbrev aBlock (c : Dev nD) (t : Fin cfg2.N) : Vec Ideal S5000x8 .f32 := iblk2 V c 0 t
abbrev ciBlock (c : Dev nD) (t : Fin cfg2.N) : Vec Ideal S5000x1 .f32 := iblk2 V c 1 t
abbrev bBlock (c : Dev nD) (t : Fin cfg2.N) : Vec Ideal S1x8 .f32 := iblk2 V c 2 t
abbrev gBlock (c : Dev nD) (t : Fin cfg2.N) : Vec Ideal S5000x1 .i32 := iblk2 V c 3 t

/-- Row `r` of point `t`'s block of the aggregate is row `5000 t + r` of the aggregate. -/
theorem aBlock_apply (c : Dev nD) (t : Fin cfg2.N) (ht : t.val < 20) (r : Fin 5000) (f : Fin 8) :
    aBlock V c t (ix2 r f) = aArr V c (ix2 (row ⟨t.val, ht⟩ r) f) := by
  obtain ⟨e0, e1, -⟩ := index_facts t
  show V c main_v38 (((cfg2.win 0).blk t).view.emb (ix2 r f)) = V c main_v38 (ix2 (row ⟨t.val, ht⟩ r) f)
  refine congrArg (V c main_v38) ?_
  funext a; apply Fin.ext
  match a with
  | ⟨0, _⟩ => show win2_0.index t (0 : Fin 2) * 5000 + 1 * r.val = 5000 * t.val + r.val; rw [e0]; omega
  | ⟨1, _⟩ => show win2_0.index t (1 : Fin 2) * 8 + 1 * f.val = f.val; rw [e1]; omega

/-- Row `r` of point `t`'s block of the row scales is row `5000 t + r` of the column. -/
theorem ciBlock_apply (c : Dev nD) (t : Fin cfg2.N) (ht : t.val < 20) (r : Fin 5000) :
    ciBlock V c t (ix2 r (0 : Fin 1)) = ciArr V c (ix2 (row ⟨t.val, ht⟩ r) (0 : Fin 1)) := by
  obtain ⟨-, -, e0, e1, -⟩ := index_facts t
  show V c main_v14 (((cfg2.win 1).blk t).view.emb (ix2 r (0 : Fin 1))) = V c main_v14 (ix2 (row ⟨t.val, ht⟩ r) (0 : Fin 1))
  refine congrArg (V c main_v14) ?_
  funext a; apply Fin.ext
  match a with
  | ⟨0, _⟩ => show win2_1.index t (0 : Fin 2) * 5000 + 1 * r.val = 5000 * t.val + r.val; rw [e0]; omega
  | ⟨1, _⟩ => show win2_1.index t (1 : Fin 2) * 1 + 1 * 0 = 0; rw [e1]

/-- The bias row is resident: every point's block of it is the row itself. -/
theorem bBlock_apply (c : Dev nD) (t : Fin cfg2.N) (f : Fin 8) :
    bBlock V c t (ix2 (0 : Fin 1) f) = bArr V c (ix2 (0 : Fin 1) f) := by
  obtain ⟨-, -, -, -, e0, e1, -⟩ := index_facts t
  show V c main_v40 (((cfg2.win 2).blk t).view.emb (ix2 (0 : Fin 1) f)) = V c main_v40 (ix2 (0 : Fin 1) f)
  refine congrArg (V c main_v40) ?_
  funext a; apply Fin.ext
  match a with
  | ⟨0, _⟩ => show win2_2.index t (0 : Fin 2) * 1 + 1 * 0 = 0; rw [e0]
  | ⟨1, _⟩ => show win2_2.index t (1 : Fin 2) * 8 + 1 * f.val = f.val; rw [e1]; omega

/-- Row `r` of point `t`'s block of the graph words is row `5000 t + r` of the column. -/
theorem gBlock_apply (c : Dev nD) (t : Fin cfg2.N) (ht : t.val < 20) (r : Fin 5000) :
    gBlock V c t (ix2 r (0 : Fin 1)) = gArr V c (ix2 (row ⟨t.val, ht⟩ r) (0 : Fin 1)) := by
  obtain ⟨-, -, -, -, -, -, e0, e1, -⟩ := index_facts t
  show V c main_v39 (((cfg2.win 3).blk t).view.emb (ix2 r (0 : Fin 1))) = V c main_v39 (ix2 (row ⟨t.val, ht⟩ r) (0 : Fin 1))
  refine congrArg (V c main_v39) ?_
  funext a; apply Fin.ext
  match a with
  | ⟨0, _⟩ => show win2_3.index t (0 : Fin 2) * 5000 + 1 * r.val = 5000 * t.val + r.val; rw [e0]; omega
  | ⟨1, _⟩ => show win2_3.index t (1 : Fin 2) * 1 + 1 * 0 = 0; rw [e1]

/-! ## The carried block after each point -/

/-- Block `t`'s sum at (g, f): over its 5000 rows, the rows whose word is `g`. -/
def blockSum (c : Dev nD) (g : Fin 64) (f : Fin 8) (t : Fin 20) : EReal :=
  ∑ r : Fin 5000,
    (if gArr V c (ix2 (row t r) (0 : Fin 1)) = BitVec.ofNat 32 g.val then (1 : EReal) else 0)
    * (aArr V c (ix2 (row t r) f) * ciArr V c (ix2 (row t r) (0 : Fin 1)) + bArr V c (ix2 (0 : Fin 1) f))

/-- The blocks' sums along the naturals (zero past the grid's 20 points), so that the running sum is a sum over a range. -/
def addend (c : Dev nD) (g : Fin 64) (f : Fin 8) (n : ℕ) : EReal :=
  if h : n < 20 then blockSum V c g f ⟨n, h⟩ else 0

/-- What point `t` adds at (g, f), written over the blocks it loads, is block `t`'s sum. -/
theorem point_sum (c : Dev nD) (t : Fin cfg2.N) (ht : t.val < 20) (g : Fin 64) (f : Fin 8) :
    (∑ r : Fin 5000,
      (if gBlock V c t (ix2 r (0 : Fin 1)) = BitVec.ofNat 32 g.val then (1 : EReal) else 0)
      * (aBlock V c t (ix2 r f) * ciBlock V c t (ix2 r (0 : Fin 1)) + bBlock V c t (ix2 (0 : Fin 1) f)))
      = addend V c g f t.val := by
  unfold addend
  rw [dif_pos ht]
  unfold blockSum
  refine Finset.sum_congr rfl fun r _ => ?_
  rw [gBlock_apply V c t ht r, aBlock_apply V c t ht r f, ciBlock_apply V c t ht r, bBlock_apply V c t f]

/-- At the first point the block is reset, so the point leaves its own sum. -/
theorem first_point (c : Dev nD) (t : Fin cfg2.N) (h0 : t.val % 20 = 0) (g : Fin 64) (f : Fin 8) :
    outsAt2 V c t.val t.isLt (ix2 g f)
      = ∑ r : Fin 5000,
          (if gBlock V c t (ix2 r (0 : Fin 1)) = BitVec.ofNat 32 g.val then (1 : EReal) else 0)
          * (aBlock V c t (ix2 r f) * ciBlock V c t (ix2 r (0 : Fin 1)) + bBlock V c t (ix2 (0 : Fin 1) f)) := by
  rw [outsAt2_A V c t h0]
  refine (congrFun (out_first c (grid2.coords t) (ms2_0 t) (hs2_0 t) (ms2_1 t) (hs2_1 t) (ms2_2 t) (hs2_2 t) (ms2_3 t) (hs2_3 t)
    (ms2_4 t) (hs2_4 t) ((hcond2_0 t).mpr h0) (aBlock V c t) (ciBlock V c t) (bBlock V c t) (gBlock V c t)) (ix2 g f)).trans ?_
  refine (Payload.pay2_apply (aBlock V c t) (ciBlock V c t) (bBlock V c t) (gBlock V c t) (k2_pay1 (F := Ideal)) g f).trans ?_
  rw [Payload.pay2_reset_apply, zero_add]

/-- At every other point the block is carried: the point adds its sum to what the point before left. -/
theorem later_point (c : Dev nD) (t : Fin cfg2.N) (h0 : ¬t.val % 20 = 0) (g : Fin 64) (f : Fin 8) :
    outsAt2 V c t.val t.isLt (ix2 g f)
      = outsAt2 V c (t.val - 1) (Nat.lt_of_le_of_lt (Nat.sub_le _ _) t.isLt) (ix2 g f)
        + ∑ r : Fin 5000,
          (if gBlock V c t (ix2 r (0 : Fin 1)) = BitVec.ofNat 32 g.val then (1 : EReal) else 0)
          * (aBlock V c t (ix2 r f) * ciBlock V c t (ix2 r (0 : Fin 1)) + bBlock V c t (ix2 (0 : Fin 1) f)) := by
  rw [outsAt2_B V c t h0]
  refine (congrFun (out_later c (grid2.coords t) (ms2_0 t) (hs2_0 t) (ms2_1 t) (hs2_1 t) (ms2_2 t) (hs2_2 t) (ms2_3 t) (hs2_3 t)
    (ms2_4 t) (hs2_4 t) (fun h => h0 ((hcond2_0 t).mp h)) (aBlock V c t) (ciBlock V c t) (bBlock V c t) (gBlock V c t)
    (outsAt2 V c (t.val - 1) (Nat.lt_of_le_of_lt (Nat.sub_le _ _) t.isLt))) (ix2 g f)).trans ?_
  exact Payload.pay2_apply (aBlock V c t) (ciBlock V c t) (bBlock V c t) (gBlock V c t)
    (outsAt2 V c (t.val - 1) (Nat.lt_of_le_of_lt (Nat.sub_le _ _) t.isLt)) g f

/-- THE INVARIANT: after point `n` the carried block holds, at (g, f), the sum of the sums of blocks 0 … n. -/
theorem carried (c : Dev nD) : ∀ (n : ℕ) (h : n < cfg2.N) (g : Fin 64) (f : Fin 8),
    outsAt2 V c n h (ix2 g f) = ∑ s ∈ Finset.range (n + 1), addend V c g f s
  | 0, h, g, f => by
    rw [Finset.sum_range_one]
    exact (first_point V c ⟨0, h⟩ rfl g f).trans (point_sum V c ⟨0, h⟩ (by decide : (0 : ℕ) < 20) g f)
  | n + 1, h, g, f => by
    have hN : n + 1 < 20 := lt_of_lt_of_eq h N_2
    rw [Finset.sum_range_succ]
    refine (later_point V c ⟨n + 1, h⟩ (by dsimp only; omega) g f).trans ?_
    exact congrArg₂ (· + ·) (carried c n (Nat.lt_of_succ_lt h) g f) (point_sum V c ⟨n + 1, h⟩ hN g f)

/-! ## The one write-back -/

/-- The grid's last point, the only one that writes the block back. -/
abbrev lastPoint : Fin cfg2.N := ⟨19, lt_of_lt_of_eq (by decide : 19 < 20) N_2.symm⟩

/-- The carried block after the last point, as contents of the result array (its one block is the whole array). -/
abbrev lastBlock (c : Dev nD) : Buf (Elt Ideal) ((c : Thread nD τ).loc main_v41) := outsAt2 V c 19 lastPoint.isLt

/-- The write-back, at the last point, writes the carried block: block (0, 0) of the [64, 8] array, read at zero
    offsets, is the array. -/
theorem flushed_eq (c : Dev nD) (t : Fin cfg2.N) (hf : (cfg2.win 4).flush t = true) :
    (dat2 V c).flushed 4 t = ((cfg2.win 4).blk t).view.read (Elt Ideal) (lastBlock V c) := by
  have hN : t.val < 20 := lt_of_lt_of_eq t.isLt N_2
  have h19 : t.val = 19 := by have := (flush2_4 t).mp hf; omega
  obtain rfl : t = lastPoint := Fin.ext h19
  show (cfg2.win 4).cut (grid2.coords lastPoint) ((dat2 V c).after 4 lastPoint) = _
  rw [after2_4]
  have hz' : (fun a => win2_4.index lastPoint a * main_v41.ty.shape.size a) = fun _ => 0 :=
    funext fun a => by fin_cases a <;> decide
  exact (Memref.read_access_unit_zero (Elt Ideal) main_v41 hz' (fun a => by rw [congrFun hz' a]; simp) (lastBlock V c)).symm

/-- So the result array ends holding the carried block after the last point. -/
theorem outArr_eq (c : Dev nD) : outArr V c = lastBlock V c :=
  (dat2 V c).arrAt_eq_of_cover 4 (lastBlock V c) (flushed_eq V c) fun i =>
    ⟨lastPoint, (flush2_4 lastPoint).mpr rfl, by
      obtain ⟨-, -, -, -, -, -, -, -, e0, e1⟩ := index_facts lastPoint
      show i ∈ ((View.whole main_v41).slice (win2_4.rect lastPoint)).set
      rw [View.set_slice_whole, Rect.mem_set_unit]
      intro a
      have h0 : (i 0 : Nat) < 64 := (i 0).isLt
      have h1 : (i 1 : Nat) < 8 := (i 1).isLt
      match a with
      | ⟨0, _⟩ =>
        show win2_4.index lastPoint (0 : Fin 2) * 64 ≤ (i 0 : Nat) ∧ (i 0 : Nat) < win2_4.index lastPoint (0 : Fin 2) * 64 + 64
        rw [e0]; omega
      | ⟨1, _⟩ =>
        show win2_4.index lastPoint (1 : Fin 2) * 8 ≤ (i 1 : Nat) ∧ (i 1 : Nat) < win2_4.index lastPoint (1 : Fin 2) * 8 + 8
        rw [e1]; omega⟩

/-- The array window 4 ends at, entry (g, f): block by block, the rows whose word is `g`. -/
theorem value (c : Dev nD) (g : Fin 64) (f : Fin 8) :
    outArr V c (ix2 g f)
      = ∑ t : Fin 20, ∑ r : Fin 5000,
          (if gArr V c (ix2 (row t r) (0 : Fin 1)) = BitVec.ofNat 32 g.val then (1 : EReal) else 0)
          * (aArr V c (ix2 (row t r) f) * ciArr V c (ix2 (row t r) (0 : Fin 1)) + bArr V c (ix2 (0 : Fin 1) f)) := by
  rw [outArr_eq V c]
  refine (carried V c 19 lastPoint.isLt g f).trans ?_
  rw [← Fin.sum_univ_eq_sum_range (fun s => addend V c g f s) 20]
  refine Finset.sum_congr rfl fun t _ => ?_
  unfold addend
  rw [dif_pos t.isLt]
  rfl

end Cert.KernelIdeal.Region2

end
-- ==== Proof.PoolSum.lean ====
/-
  The reference's last scatter-add, read as a sum over rows.

  Scattering the rows of a [100000, 8] array `u` into a [64, 8] array of sums, row `r` going to the row that the
  signed word `gid r` names (dropped when that is outside [0, 64)), leaves at (g, f) the start value plus the sum of
  `u (r, f)` over the rows `r` whose word is `g`: a sum over ALL rows of a term that is `u (r, f)` where the word is
  `g` and zero elsewhere. A sum over the 100000 rows is the sum over the 20 blocks of 5000 consecutive rows of the
  block's sum.
-/
import proofs.«419733_j37726992728419_3_alg».proof.Proof.Gen.ReferenceIdeal
import Idealize.ShloMosaic.PureOps.Ideal.Laws
import Idealize.ShloMosaic.Lib.ValueIdx

noncomputable section

namespace Cert.PoolSum

open Idealize.ShloMosaic Idealize.ShloMosaic.ValueIdx Cert.ReferenceIdeal

/-! ## Where one update lands

The dimension numbers: operand axis 0 is the scattered one (its start is the row's word, read signed; its window
coordinate is 0, the axis being inserted), operand axis 1 is the window axis (start 0, window coordinate the update's
column). So update (r, f') lands at (word r, f') when 0 ≤ word r < 64, and nowhere otherwise. -/

local notation "𝒹" => scatter_S64x8_S100000x1_S100000x8_1_0_0_1

/-- The scatter-indices index an update (r, f') reads its start from is (r, 0), whichever start component is asked for
    (there is one). -/
theorem siIdx_ix2 (r : Fin 100000) (f' : Fin 8) (c : Fin (𝒹).scatterDimsToOperandDims.length) :
    (𝒹).siIdx (ix2 r f' : S100000x8.Idx) c = (ix2 r (0 : Fin 1) : S100000x1.Idx) := by
  funext b
  match b with
  | ⟨0, _⟩ => rfl
  | ⟨1, _⟩ => exact Subsingleton.elim (α := Fin 1) _ _

/-- On operand axis 0 the start of update (r, f') is row r's word, read signed. -/
theorem start_axis0 (gid : IVec S100000x1 32) (r : Fin 100000) (f' : Fin 8) :
    (𝒹).start (ix2 r f') gid 0 = (gid (ix2 r (0 : Fin 1))).toInt := by
  unfold ScatterDims.start
  rw [dif_pos (show (0 : Fin S64x8.rank) ∈ (𝒹).scatterDimsToOperandDims from List.mem_singleton.mpr rfl), siIdx_ix2]

/-- On operand axis 1, which the index map does not name, the start is 0. -/
theorem start_axis1 (gid : IVec S100000x1 32) (r : Fin 100000) (f' : Fin 8) :
    (𝒹).start (ix2 r f') gid 1 = 0 := rfl

/-- On operand axis 0, an inserted axis, the window coordinate is 0. -/
theorem window_axis0 (r : Fin 100000) (f' : Fin 8) : (𝒹).window (ix2 r f' : S100000x8.Idx) 0 = 0 := rfl

/-- On operand axis 1 the window coordinate of update (r, f') is its column f'. -/
theorem window_axis1 (r : Fin 100000) (f' : Fin 8) : (𝒹).window (ix2 r f' : S100000x8.Idx) 1 = f'.val := rfl

/-- Update (r, f') lands at (g, f) exactly when row r's word, read signed, is g and f' = f. -/
theorem resultIdx_ix2_iff (gid : IVec S100000x1 32) (r : Fin 100000) (f' : Fin 8) (g : Fin 64) (f : Fin 8) :
    (𝒹).resultIdx? (ix2 r f') gid = some (ix2 g f) ↔ (gid (ix2 r (0 : Fin 1))).toInt = (g.val : Int) ∧ f' = f := by
  unfold ScatterDims.resultIdx?
  constructor
  · intro h
    split at h
    · rename_i hall
      have he := Option.some.inj h
      have h0 : ((𝒹).start (ix2 r f') gid 0 + ((𝒹).window (ix2 r f' : S100000x8.Idx) 0 : Int)).toNat = g.val :=
        congrArg (fun i : S64x8.Idx => (i 0).val) he
      have h1 : ((𝒹).start (ix2 r f') gid 1 + ((𝒹).window (ix2 r f' : S100000x8.Idx) 1 : Int)).toNat = f.val :=
        congrArg (fun i : S64x8.Idx => (i 1).val) he
      have a0 := (hall 0).1
      rw [start_axis0, window_axis0] at h0 a0
      rw [start_axis1, window_axis1] at h1
      exact ⟨by omega, Fin.ext (by omega)⟩
    · exact absurd h (by simp)
  · rintro ⟨hw, rfl⟩
    have hg := g.isLt
    have hf := f'.isLt
    have hall : ∀ a, 0 ≤ (𝒹).start (ix2 r f') gid a + ((𝒹).window (ix2 r f' : S100000x8.Idx) a : Int) ∧
        (𝒹).start (ix2 r f') gid a + ((𝒹).window (ix2 r f' : S100000x8.Idx) a : Int) < (S64x8.size a : Int) := by
      intro a
      match a with
      | ⟨0, _⟩ =>
        show 0 ≤ (𝒹).start (ix2 r f') gid 0 + ((𝒹).window (ix2 r f' : S100000x8.Idx) 0 : Int) ∧
          (𝒹).start (ix2 r f') gid 0 + ((𝒹).window (ix2 r f' : S100000x8.Idx) 0 : Int) < ((64 : Nat) : Int)
        rw [start_axis0, window_axis0]; omega
      | ⟨1, _⟩ =>
        show 0 ≤ (𝒹).start (ix2 r f') gid 1 + ((𝒹).window (ix2 r f' : S100000x8.Idx) 1 : Int) ∧
          (𝒹).start (ix2 r f') gid 1 + ((𝒹).window (ix2 r f' : S100000x8.Idx) 1 : Int) < ((8 : Nat) : Int)
        rw [start_axis1, window_axis1]; omega
    rw [dif_pos hall]
    congr 1
    funext a
    match a with
    | ⟨0, _⟩ =>
      apply Fin.ext
      show ((𝒹).start (ix2 r f') gid 0 + ((𝒹).window (ix2 r f' : S100000x8.Idx) 0 : Int)).toNat = g.val
      rw [start_axis0, window_axis0]; omega
    | ⟨1, _⟩ =>
      apply Fin.ext
      show ((𝒹).start (ix2 r f') gid 1 + ((𝒹).window (ix2 r f' : S100000x8.Idx) 1 : Int)).toNat = f'.val
      rw [start_axis1, window_axis1]; omega

/-- A 32-bit word reads, signed, as a natural number g below 64 exactly when it is the word of g. -/
theorem toInt_eq_iff_eq_ofNat (w : BitVec 32) (g : Nat) (hg : g < 64) : w.toInt = (g : Int) ↔ w = BitVec.ofNat 32 g := by
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-! ## The scatter-add as a sum over rows

The sum over the updates that land at (g, f) is the sum over all updates (r, f') of the update where it lands there and
zero elsewhere; as a double sum over r and f', the inner sum keeps the one column f' = f, and only on rows whose word is g. -/

/-- The exact scatter-add of the rows of `u` by the words `gid`, at (g, f): the start value plus, over all rows, the row's
    entry where the row's word is `g` (as a 32-bit word), zero elsewhere. -/
theorem scatter_rows (z : S64x8.Idx → EReal) (gid : IVec S100000x1 32) (u : S100000x8.Idx → EReal) (g : Fin 64) (f : Fin 8) :
    Ideal.hostScatterAdd scatter_S64x8_S100000x1_S100000x8_1_0_0_1 z gid u (ix2 g f)
      = z (ix2 g f) + ∑ r : Fin 100000, (if gid (ix2 r (0 : Fin 1)) = BitVec.ofNat 32 g.val then u (ix2 r f) else 0) := by
  unfold Ideal.hostScatterAdd
  refine congrArg (fun x => z (ix2 g f) + x) ?_
  rw [Finset.sum_filter, sum_idx2]
  refine Finset.sum_congr rfl fun r _ => ?_
  simp only [resultIdx_ix2_iff, toInt_eq_iff_eq_ofNat _ _ g.isLt]
  by_cases hw : gid (ix2 r (0 : Fin 1)) = BitVec.ofNat 32 g.val
  · simp only [hw, true_and, if_true]
    rw [Finset.sum_ite_eq' Finset.univ f (fun b => u (ix2 r b)), if_pos (Finset.mem_univ f)]
  · simp only [hw, false_and, if_false]
    exact Finset.sum_const_zero

/-- Row `5000 * t + q` of the 100000 rows. -/
def row (t : Fin 20) (q : Fin 5000) : Fin 100000 := ⟨5000 * t.val + q.val, by have := t.isLt; have := q.isLt; omega⟩

/-- A sum over the 100000 rows, block by block. -/
theorem sum_rows_blocks (φ : Fin 100000 → EReal) : ∑ r : Fin 100000, φ r = ∑ t : Fin 20, ∑ q : Fin 5000, φ (row t q) := by
  rw [← Fintype.sum_prod_type (f := fun p : Fin 20 × Fin 5000 => φ (row p.1 p.2))]
  rw [← Equiv.sum_comp ((finProdFinEquiv (m := 20) (n := 5000)).trans (finCongr (by norm_num : 20 * 5000 = 100000))) φ]
  refine Finset.sum_congr rfl fun p _ => ?_
  refine congrArg φ (Fin.ext ?_)
  show p.2.val + 5000 * p.1.val = 5000 * p.1.val + p.2.val
  omega

end Cert.PoolSum

end
-- ==== Proof.Bridge3.lean ====
/-
  The pooled means of the kernel program are the reference's.

  After the second pipeline its result holds the reference's layer-2 transform, so the host operations that follow leave
  the reference's layer-2 neighbour sums, the graph words as a column and the second bias as a row. The third pipeline sums,
  for graph g and feature f, over all rows r, [word r = g] · (s (r, f) · scaleᵢ r + b f); the reference scatter-adds the rows
  s (r, ·) · scaleᵢ r + b by the words into zeros, which is the same sum: a row whose word is g contributes its entry, every
  other row nothing (a word outside [0, 64) names no graph on either side). The last host operations divide both by the same
  clamped node counts.
-/
import proofs.«419733_j37726992728419_3_alg».proof.Proof.Bridge2
import proofs.«419733_j37726992728419_3_alg».proof.Proof.Region2
import proofs.«419733_j37726992728419_3_alg».proof.Proof.PoolSum

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-! ## At the third pipeline's entry -/

/-- The kernel program's layer-2 neighbour sums of the reference's transform are the reference's. -/
theorem agg8_ref (y0 : S100000x256.Idx → EReal) (y1 : S256x128.Idx → EReal) (y2 : S128.Idx → EReal) (y3 : S128x8.Idx → EReal)
    (y5 y6 : S1600000.Idx → BitVec 32) :
    Stretch.agg8 (F := Ideal) (val_main_v37 (F := Ideal) y0 y1 y2 y3 y5 y6) y5 y6 = val_main_v47 (F := Ideal) y0 y1 y2 y3 y5 y6 := rfl

theorem W5_v38 : (W5 m ρ c (Proc.devRef .tc main_v38) : S100000x8.Idx → EReal)
    = val_main_v47 (F := Ideal) (x0 m c) (x1 m c) (x2 m c) (x3 m c) (x5 m c) (x6 m c) := by
  rw [show (W5 m ρ c (Proc.devRef .tc main_v38) : S100000x8.Idx → EReal) = _ from Stretch.s2_v38 (W4 m ρ c)]
  rw [W4_v28, W4_arg5, W4_arg6]
  exact agg8_ref _ _ _ _ _ _

/-- The graph words as a column, read at row p. -/
theorem W5_v39_apply (p : Fin 100000) :
    (W5 m ρ c (Proc.devRef .tc main_v39) : S100000x1.Idx → BitVec 32) (ix2 p (0 : Fin 1)) = x7 m c (ix1 p) := by
  rw [show (W5 m ρ c (Proc.devRef .tc main_v39) : S100000x1.Idx → BitVec 32) = _ from Stretch.s2_v39 (W4 m ρ c), W4_arg7]
  exact Cert.LibColumn.shapeCast_a_a1_apply _ _ p 0

/-- The second bias as a row, read at column f. -/
theorem W5_v40_apply (f : Fin 8) :
    (W5 m ρ c (Proc.devRef .tc main_v40) : S1x8.Idx → EReal) (ix2 (0 : Fin 1) f) = x4 m c (ix1 f) := by
  rw [show (W5 m ρ c (Proc.devRef .tc main_v40) : S1x8.Idx → EReal) = _ from Stretch.s2_v40 (W4 m ρ c), W4_arg4]
  exact shapeCast_a_1a_apply _ _ 0 f

theorem W5_v14 : W5 m ρ c (Proc.devRef .tc main_v14) = W1 m ρ c (Proc.devRef .tc main_v14) :=
  (Stretch.s2_v14 (W4 m ρ c)).trans (W4_v14 m ρ c)
theorem W5_arg7 : W5 m ρ c (Proc.devRef .tc main_arg7) = x7 m c := (Stretch.s2_arg7 (W4 m ρ c)).trans (W4_arg7 m ρ c)

/-- The third pipeline's arrays as it finds them. -/
theorem r2_a : Region2.aArr (V5 m ρ) c = val_main_v47 (F := Ideal) (x0 m c) (x1 m c) (x2 m c) (x3 m c) (x5 m c) (x6 m c) := W5_v38 m ρ c
theorem r2_ci (p : Fin 100000) : Region2.ciArr (V5 m ρ) c (ix2 p (0 : Fin 1)) = val_main_v12 (F := Ideal) (x6 m c) (ix1 p) := by
  rw [show Region2.ciArr (V5 m ρ) c = (W1 m ρ c (Proc.devRef .tc main_v14) : S100000x1.Idx → EReal) from W5_v14 m ρ c]
  exact W1_v14_apply m ρ c p
theorem r2_b (f : Fin 8) : Region2.bArr (V5 m ρ) c (ix2 (0 : Fin 1) f) = x4 m c (ix1 f) := W5_v40_apply m ρ c f
theorem r2_g (p : Fin 100000) : Region2.gArr (V5 m ρ) c (ix2 p (0 : Fin 1)) = x7 m c (ix1 p) := W5_v39_apply m ρ c p

/-! ## The pooling sums -/

/-- The reference's biased, scaled layer-2 rows, read at (p, f). -/
theorem v53_apply (p : Fin 100000) (f : Fin 8) :
    val_main_v53 (F := Ideal) (x0 m c) (x1 m c) (x2 m c) (x3 m c) (x4 m c) (x5 m c) (x6 m c) (ix2 p f)
      = val_main_v47 (F := Ideal) (x0 m c) (x1 m c) (x2 m c) (x3 m c) (x5 m c) (x6 m c) (ix2 p f)
          * val_main_v12 (F := Ideal) (x6 m c) (ix1 p) + x4 m c (ix1 f) := by
  have h48 : idx_main_v48 (idx_main_v49 (ix2 p f)) = ix1 p := by
    funext a; match a with | ⟨0, _⟩ => rfl
  have h51 : idx_main_v51 (idx_main_v52 (ix2 p f)) = ix1 f := by
    funext a; match a with | ⟨0, _⟩ => rfl
  rw [val_main_v53_apply, val_main_v50_apply, val_main_v49_apply, val_main_v48_apply, h48, val_main_v52_apply,
    val_main_v51_apply, h51]
  rfl

/-- The third pipeline's result is the reference's scatter-add of those rows by the graph words. -/
theorem pool : Region2.outArr (V5 m ρ) c
    = val_main_v56 (F := Ideal) (x0 m c) (x1 m c) (x2 m c) (x3 m c) (x4 m c) (x5 m c) (x6 m c) (x7 m c) := by
  funext i
  obtain ⟨g, f, rfl⟩ : ∃ (g : Fin 64) (f : Fin 8), i = ix2 g f := ⟨i 0, i 1, eq_ix2 i⟩
  rw [Region2.value]
  show _ = Ideal.hostScatterAdd Cert.ReferenceIdeal.scatter_S64x8_S100000x1_S100000x8_1_0_0_1 (val_main_v54 (F := Ideal))
      (val_main_v55 (F := Ideal) (x7 m c)) (val_main_v53 (F := Ideal) (x0 m c) (x1 m c) (x2 m c) (x3 m c) (x4 m c) (x5 m c) (x6 m c)) (ix2 g f)
  rw [Cert.PoolSum.scatter_rows, Cert.PoolSum.sum_rows_blocks]
  have hz : val_main_v54 (F := Ideal) (ix2 g f) = 0 := by
    rw [val_main_v54_apply, val_main_cst_9_apply]; exact Ideal.ofBits_zero_f32
  rw [hz, zero_add]
  refine Finset.sum_congr rfl fun t _ => Finset.sum_congr rfl fun r _ => ?_
  have hrow : Cert.PoolSum.row t r = Region2.row t r := rfl
  have h55 : val_main_v55 (F := Ideal) (x7 m c) (ix2 (Region2.row t r) (0 : Fin 1)) = x7 m c (ix1 (Region2.row t r)) := by
    rw [val_main_v55_apply]
    refine congrArg (x7 m c) ?_
    funext a; match a with | ⟨0, _⟩ => rfl
  rw [hrow, h55, v53_apply, r2_a, r2_ci, r2_b, r2_g]
  by_cases h : x7 m c (ix1 (Region2.row t r)) = BitVec.ofNat 32 g.val
  · rw [if_pos h, if_pos h, one_mul]
  · rw [if_neg h, if_neg h, zero_mul]

/-! ## After the third pipeline, and the result -/

theorem W6_v41 : (W6 m ρ c (Proc.devRef .tc main_v41) : S64x8.Idx → EReal)
    = val_main_v56 (F := Ideal) (x0 m c) (x1 m c) (x2 m c) (x3 m c) (x4 m c) (x5 m c) (x6 m c) (x7 m c) :=
  (W6_arr m ρ c 4).trans (pool m ρ c)

theorem W6_arg7 : W6 m ρ c (Proc.devRef .tc main_arg7) = x7 m c := (W6_of_ne m ρ c main_arg7 (by decide)).trans (W5_arg7 m ρ c)

/-- THE KERNEL PROGRAM'S RESULT: the buffer it returns holds, at the end of the run, the reference's result term of the launch
    arguments. -/
theorem kernel_value : (W7 m ρ c (Proc.devRef .tc main_v50) : S64x8.Idx → EReal)
    = val_main_v65 (F := Ideal) (x0 m c) (x1 m c) (x2 m c) (x3 m c) (x4 m c) (x5 m c) (x6 m c) (x7 m c) := by
  rw [show (W7 m ρ c (Proc.devRef .tc main_v50) : S64x8.Idx → EReal) = _ from Stretch.s3_v50 (W6 m ρ c)]
  rw [W6_v41, W6_arg7]
  rfl

end Cert.KernelIdeal.Bridge

end
-- ==== Proof.lean ====
/-
  A two-layer graph convolution with mean pooling over graphs, on 100000 nodes, 1600000 edges and 64 graphs: the kernel
  program against its plain reference, over the extended reals.

  Both programs scale each node's features by the reciprocal square root of its clamped out-degree, multiply by a weight
  matrix, sum over each node's in-neighbours, scale by the reciprocal square root of the clamped in-degree and add a bias;
  they do this twice, with a rectifier in between, and average the result over the nodes of each graph. The kernel program
  computes the two matrix products block by block over 20 blocks of 5000 nodes (the second fused with the first layer's bias
  and rectifier) and the per-graph sums as a product with the one-hot matrix of the graph words, accumulated over the same 20
  blocks; the reference computes whole matrix products and a scatter-add by the graph words. Read as extended reals, rounding
  to a shorter float format is the identity, a sum is the same in any grouping, and a row whose graph word is g contributes to
  graph g's sum exactly its entry on both sides, so the two results are one function of the arguments: the reference's result
  term. The degree scales, the neighbour sums and the node counts are the same operations of equal arrays on both sides and
  are never opened. Neither the frames nor the equality needs the inputs to be finite.

  The kernel program's frames are the generated ones; the reference's is its generated run with the result dropped; the
  idealization rewrote nothing, so `preserves` is trivial.
-/
import proofs.«419733_j37726992728419_3_alg».proof.Defs
import proofs.«419733_j37726992728419_3_alg».proof.Proof.Gen.Kernel
import proofs.«419733_j37726992728419_3_alg».proof.Proof.Gen.KernelIdeal
import proofs.«419733_j37726992728419_3_alg».proof.Proof.Gen.ReferenceIdeal
import proofs.«419733_j37726992728419_3_alg».proof.Proof.Gen.Pre_finite_inputs
import proofs.«419733_j37726992728419_3_alg».proof.Proof.Gen.ReferenceIdeal.Run
import proofs.«419733_j37726992728419_3_alg».proof.Proof.Gen.ReferenceIdeal.Read
import proofs.«419733_j37726992728419_3_alg».proof.Proof.KernelFrame
import proofs.«419733_j37726992728419_3_alg».proof.Proof.KernelIdealFrame
import proofs.«419733_j37726992728419_3_alg».proof.Proof.KernelRun
import proofs.«419733_j37726992728419_3_alg».proof.Proof.Bridge3
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the (agreeing) arguments in their result buffers. -/
theorem algebraic : Cert.algebraic_KernelIdeal_ReferenceIdeal := by
  intro m ρ m' ρ' _ hagree
  refine ⟨fun c => Cert.ReferenceIdeal.Read.val_main_v65 (F := Ideal) (Cert.KernelIdeal.Bridge.x0 m c) (Cert.KernelIdeal.Bridge.x1 m c) (Cert.KernelIdeal.Bridge.x2 m c) (Cert.KernelIdeal.Bridge.x3 m c) (Cert.KernelIdeal.Bridge.x4 m c) (Cert.KernelIdeal.Bridge.x5 m c) (Cert.KernelIdeal.Bridge.x6 m c) (Cert.KernelIdeal.Bridge.x7 m c), ?_, ?_⟩
  · exact (θ_run Cert.KernelIdeal.defs _ _).mono
      (fun r h c => ⟨(h c).1.trans (Cert.KernelIdeal.Bridge.kernel_value m ρ c), (h c).2⟩) (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v65_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
